-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S800000x128 : Shape := ⟨2, ![800000, 128]⟩
abbrev S1x128 : Shape := ⟨2, ![1, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 102
  | .vmem => 54
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000x1, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S800000x128, .f32⟩
  | .hbm, ⟨93, _⟩ => ⟨S800000x128, .f32⟩
  | .hbm, ⟨94, _⟩ => ⟨S_, .f32⟩
  | .hbm, ⟨95, _⟩ => ⟨S50000x128, .f32⟩
  | .hbm, ⟨96, _⟩ => ⟨S800000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S1x64, .f32⟩
  | .hbm, ⟨101, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x1, .f32⟩
  | .local _ .vmem, ⟨42, _⟩ => ⟨S2000x1, .f32⟩
  | .local _ .vmem, ⟨43, _⟩ => ⟨S1x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x64, .f32⟩
  | .local _ .vmem, ⟨51, _⟩ => ⟨S1x64, .f32⟩
  | .local _ .vmem, ⟨52, _⟩ => ⟨S2000x64, .f32⟩
  | .local _ .vmem, ⟨53, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_11 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_13 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S2000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S2000x1_S2000x128 : S2000x1.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x128.size a ≤ S50000x128.size a
  hwx5_5 : ∀ i : grid5.Coords, EltTy.bits .f32 = 32 ∨ (Rect.block (s := S50000x128) S2000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S2000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v43) S2000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v58) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v58) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v71) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v72) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v58) S2000x128.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v73) S2000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v73) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v74) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v75) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000, .f32⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .f32⟩
  | .hbm, ⟨42, _⟩ => ⟨S800000, .f32⟩
  | .hbm, ⟨43, _⟩ => ⟨S800000x1, .f32⟩
  | .hbm, ⟨44, _⟩ => ⟨S50000, .f32⟩
  | .hbm, ⟨45, _⟩ => ⟨S50000x1, .f32⟩
  | .hbm, ⟨46, _⟩ => ⟨S50000x128, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x128, .f32⟩
  | .hbm, ⟨56, _⟩ => ⟨S800000x128, .f32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S800000x128, .f32⟩
  | .hbm, ⟨83, _⟩ => ⟨S800000x128, .f32⟩
  | .hbm, ⟨84, _⟩ => ⟨S_, .f32⟩
  | .hbm, ⟨85, _⟩ => ⟨S50000x128, .f32⟩
  | .hbm, ⟨86, _⟩ => ⟨S800000x1, .i32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x128, .f32⟩
  | .hbm, ⟨108, _⟩ => ⟨S800000x128, .f32⟩
  | .hbm, ⟨109, _⟩ => ⟨S800000x128, .f32⟩
  | .hbm, ⟨110, _⟩ => ⟨S_, .f32⟩
  | .hbm, ⟨111, _⟩ => ⟨S50000x128, .f32⟩
  | .hbm, ⟨112, _⟩ => ⟨S800000x1, .i32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S50000x128, .f32⟩
  | .hbm, ⟨117, _⟩ => ⟨S1x128, .f32⟩
  | .hbm, ⟨118, _⟩ => ⟨S50000x128, .f32⟩
  | .hbm, ⟨119, _⟩ => ⟨S50000x128, .f32⟩
  | .hbm, ⟨120, _⟩ => ⟨S_, .f32⟩
  | .hbm, ⟨121, _⟩ => ⟨S50000x128, .f32⟩
  | .hbm, ⟨122, _⟩ => ⟨S50000x128, .f32⟩
  | .hbm, ⟨123, _⟩ => ⟨S50000x128, .f32⟩
  | .hbm, ⟨124, _⟩ => ⟨S50000x64, .f32⟩
  | .hbm, ⟨125, _⟩ => ⟨S1x64, .f32⟩
  | .hbm, ⟨126, _⟩ => ⟨S50000x64, .f32⟩
  | .hbm, ⟨127, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_11 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_13 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_call2_cst : Ref sig .tc := ⟨.hbm, 120, rfl⟩
abbrev main_call2_v0 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.RefAggregate.lean ====
/-
  The reference's neighbourhood aggregation, named once.

  In each layer the projected features `p` (one row per node) are aggregated along the edges: edge e reads the row of its
  source node `src e` (an index below zero counted from the end: 50000 is added to it), scales it by the edge's weight
  `ew e`, and adds it into the row of its destination node `dst e`, all rows starting from zero. Both programs compute this
  with the same host operations — a gather, a product with the broadcast weights, a scatter-add — so the certificate never
  opens it: it only needs that the reference's three aggregates are THIS function of the layer's projected features and of
  the three per-edge arrays, which holds by unfolding the stages' definitions.
-/
import proofs.«116004_j4913442587254_1_alg».proof.Proof.Gen.ReferenceIdeal.Read

noncomputable section

namespace Cert.ReferenceIdeal.Aggregate

open Cert.ReferenceIdeal Cert.ReferenceIdeal.Gen Cert.ReferenceIdeal.Read
open Idealize.ShloMosaic Idealize.ShloMosaic.TcCoe Idealize.SL.Sem

variable {F : FTy → Type} [FloatOps F]

/-- Rows of `p` gathered at the edges' sources, scaled by the edges' weights, summed into the edges' destinations. -/
def aggregate (p : (⟨S50000x128, .f32⟩ : BufTy).Contents (Elt F)) (src dst : (⟨S800000, .i32⟩ : BufTy).Contents (Elt F))
    (ew : (⟨S800000x1, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (Host.gather gather_S50000x128_S800000x1_S800000x128_1_0_n_n_0_1_1128 p
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)))
      (broadcastInDim S800000x128 ![0, 1] bcast_S800000x1_S800000x128_0_1 ew))

/-- The first layer's aggregate is that function of the first projection. -/
theorem first (x0 : (⟨S50000x128, .f32⟩ : BufTy).Contents (Elt F)) (x1 : (⟨S2x800000, .i32⟩ : BufTy).Contents (Elt F)) (x2 : (⟨S128x128, .f32⟩ : BufTy).Contents (Elt F)) :
    val_main_v41 (F := F) x0 x1 x2 = aggregate (val_main_v29 (F := F) x0 x2) (val_main_v1 (F := F) x1) (val_main_v3 (F := F) x1) (val_main_v26 (F := F) x1) := rfl

/-- The second layer's aggregate is that function of the second projection. -/
theorem second (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) :
    val_main_v62 (F := F) x0 x1 x2 x3 x4 = aggregate (val_main_v50 (F := F) x0 x1 x2 x3 x4) (val_main_v1 (F := F) x1) (val_main_v3 (F := F) x1) (val_main_v26 (F := F) x1) := rfl

/-- The third layer's aggregate is that function of the third projection. -/
theorem third (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) :
    val_main_v83 (F := F) x0 x1 x2 x3 x4 x5 x6 = aggregate (val_main_v71 (F := F) x0 x1 x2 x3 x4 x5 x6) (val_main_v1 (F := F) x1) (val_main_v3 (F := F) x1) (val_main_v26 (F := F) x1) := rfl

end Cert.ReferenceIdeal.Aggregate

end
-- ==== Proof.Boundaries.lean ====
/-
  The kernel program between its regions.

  @main alternates stretches of host operations with the seven regions; the generated frame names the buffers' contents at
  every boundary, `W0` (the launch memory) to `W12` (the end). Two kinds of fact carry a value across a boundary, and
  this module states both once per segment:

  * KEPT. A stretch of host operations changes only the buffers its operations write, and a region changes only its output
    array (its input windows are read, the rest is not staged at all).
  * WRITTEN. The first stretch computes, from the edge list alone, the sources and destinations of the edges, the edges'
    weights and the nodes' self-loop weights: they are the reference's stages of the same names, operation for operation. Each
    later stretch computes a layer's aggregate, which is the reference's aggregation function (never opened here) of the
    projected features it finds, and lays a bias out as one row.
-/
import proofs.«116004_j4913442587254_1_alg».proof.Proof.Gen.KernelIdeal.Frame
import proofs.«116004_j4913442587254_1_alg».proof.Proof.Gen.ReferenceIdeal.Read
import proofs.«116004_j4913442587254_1_alg».proof.Proof.RefAggregate
import Idealize.ShloMosaic.Lib.StableHlo.Run

set_option maxRecDepth 16384

noncomputable section

namespace Cert.KernelIdeal.Boundaries

open Cert.KernelIdeal Cert.KernelIdeal.Gen
open Cert.ReferenceIdeal (Aggregate.aggregate)
open Idealize.ShloMosaic Idealize.ShloMosaic.TcCoe Idealize.SL.Sem Idealize.ShloMosaic.StableHlo

/-! ## What the host stretches write -/

/-- The buffers the host stretch `hostOps0` writes. -/
abbrev written0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28]
theorem written0_all : (hostOps0 : List (HloOp τ sig (Elt Ideal))).Forall fun op => op.writes ⊆ (written0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the host stretch `hostOps1` writes. -/
abbrev written1 : List (Ref sig .tc) := [main_c_5, main_v30, main_v31, main_c_6, main_v32, main_v33, main_v34, main_v35, main_v36, main_v37, main_v38, main_cst_7, main_v39, main_v40, main_v41, main_v42]
theorem written1_all : (hostOps1 : List (HloOp τ sig (Elt Ideal))).Forall fun op => op.writes ⊆ (written1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the host stretch `hostOps3` writes. -/
abbrev written3 : List (Ref sig .tc) := [main_c_8, main_v45, main_v46, main_c_9, main_v47, main_v48, main_v49, main_v50, main_v51, main_v52, main_v53, main_cst_10, main_v54, main_v55, main_v56, main_v57]
theorem written3_all : (hostOps3 : List (HloOp τ sig (Elt Ideal))).Forall fun op => op.writes ⊆ (written3.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the host stretch `hostOps5` writes. -/
abbrev written5 : List (Ref sig .tc) := [main_c_11, main_v60, main_v61, main_c_12, main_v62, main_v63, main_v64, main_v65, main_v66, main_v67, main_v68, main_cst_13, main_v69, main_v70, main_v71, main_v72]
theorem written5_all : (hostOps5 : List (HloOp τ sig (Elt Ideal))).Forall fun op => op.writes ⊆ (written5.map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The buffers the host stretch `hostOps6` writes. -/
abbrev written6 : List (Ref sig .tc) := [main_v74]
theorem written6_all : (hostOps6 : List (HloOp τ sig (Elt Ideal))).Forall fun op => op.writes ⊆ (written6.map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## Kept across a segment -/

variable (m : (ℓ : Loc nD τ sig) → Buf (Elt Ideal) ℓ) (ρ : Dev nD → PrngReg)

/-- The stretch of host operations before boundary 1 leaves every buffer it does not write. -/
theorem kept1 (c : Dev nD) (r : Ref sig .tc) (h : r ∉ written0) :
    W1 m ρ c (Proc.devRef .tc r) = W0 m ρ c (Proc.devRef .tc r) :=
  StableHlo.after_of_writes_sub hostOps0 _ written0_all h

/-- Region 0 leaves every buffer but its output array: a buffer it does not stage is untouched, and an input window's
    array is only read. -/
theorem kept2 (c : Dev nD) (r : Ref sig .tc) (h : r ≠ main_v29) :
    W2 m ρ c (Proc.devRef .tc r) = W1 m ρ c (Proc.devRef .tc r) := by
  by_cases hw : ∃ w, Pipeline.arrRef spec0 w = r
  · obtain ⟨w, rfl⟩ := hw
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl h
  · exact W2_of_ne m ρ c r fun w e => hw ⟨w, e⟩

/-- The stretch of host operations before boundary 3 leaves every buffer it does not write. -/
theorem kept3 (c : Dev nD) (r : Ref sig .tc) (h : r ∉ written1) :
    W3 m ρ c (Proc.devRef .tc r) = W2 m ρ c (Proc.devRef .tc r) :=
  StableHlo.after_of_writes_sub hostOps1 _ written1_all h

/-- Region 1 leaves every buffer but its output array: a buffer it does not stage is untouched, and an input window's
    array is only read. -/
theorem kept4 (c : Dev nD) (r : Ref sig .tc) (h : r ≠ main_v43) :
    W4 m ρ c (Proc.devRef .tc r) = W3 m ρ c (Proc.devRef .tc r) := by
  by_cases hw : ∃ w, Pipeline.arrRef spec1 w = r
  · obtain ⟨w, rfl⟩ := hw
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact (W4_arr m ρ c 3).trans (((dat1 (V3 m ρ) c).arrAt_in 3 rfl _).trans (A_eq1 (V3 m ρ) c 3))
    | ⟨4, _⟩ => exact (W4_arr m ρ c 4).trans (((dat1 (V3 m ρ) c).arrAt_in 4 rfl _).trans (A_eq1 (V3 m ρ) c 4))
    | ⟨5, _⟩ => exact absurd rfl h
  · exact W4_of_ne m ρ c r fun w e => hw ⟨w, e⟩

/-- Region 2 leaves every buffer but its output array: a buffer it does not stage is untouched, and an input window's
    array is only read. -/
theorem kept5 (c : Dev nD) (r : Ref sig .tc) (h : r ≠ main_v44) :
    W5 m ρ c (Proc.devRef .tc r) = W4 m ρ c (Proc.devRef .tc r) := by
  by_cases hw : ∃ w, Pipeline.arrRef spec2 w = r
  · obtain ⟨w, rfl⟩ := hw
    match w with
    | ⟨0, _⟩ => exact (W5_arr m ρ c 0).trans (((dat2 (V4 m ρ) c).arrAt_in 0 rfl _).trans (A_eq2 (V4 m ρ) c 0))
    | ⟨1, _⟩ => exact (W5_arr m ρ c 1).trans (((dat2 (V4 m ρ) c).arrAt_in 1 rfl _).trans (A_eq2 (V4 m ρ) c 1))
    | ⟨2, _⟩ => exact absurd rfl h
  · exact W5_of_ne m ρ c r fun w e => hw ⟨w, e⟩

/-- The stretch of host operations before boundary 6 leaves every buffer it does not write. -/
theorem kept6 (c : Dev nD) (r : Ref sig .tc) (h : r ∉ written3) :
    W6 m ρ c (Proc.devRef .tc r) = W5 m ρ c (Proc.devRef .tc r) :=
  StableHlo.after_of_writes_sub hostOps3 _ written3_all h

/-- Region 3 leaves every buffer but its output array: a buffer it does not stage is untouched, and an input window's
    array is only read. -/
theorem kept7 (c : Dev nD) (r : Ref sig .tc) (h : r ≠ main_v58) :
    W7 m ρ c (Proc.devRef .tc r) = W6 m ρ c (Proc.devRef .tc r) := by
  by_cases hw : ∃ w, Pipeline.arrRef spec3 w = r
  · obtain ⟨w, rfl⟩ := hw
    match w with
    | ⟨0, _⟩ => exact (W7_arr m ρ c 0).trans (((dat3 (V6 m ρ) c).arrAt_in 0 rfl _).trans (A_eq3 (V6 m ρ) c 0))
    | ⟨1, _⟩ => exact (W7_arr m ρ c 1).trans (((dat3 (V6 m ρ) c).arrAt_in 1 rfl _).trans (A_eq3 (V6 m ρ) c 1))
    | ⟨2, _⟩ => exact (W7_arr m ρ c 2).trans (((dat3 (V6 m ρ) c).arrAt_in 2 rfl _).trans (A_eq3 (V6 m ρ) c 2))
    | ⟨3, _⟩ => exact (W7_arr m ρ c 3).trans (((dat3 (V6 m ρ) c).arrAt_in 3 rfl _).trans (A_eq3 (V6 m ρ) c 3))
    | ⟨4, _⟩ => exact (W7_arr m ρ c 4).trans (((dat3 (V6 m ρ) c).arrAt_in 4 rfl _).trans (A_eq3 (V6 m ρ) c 4))
    | ⟨5, _⟩ => exact absurd rfl h
  · exact W7_of_ne m ρ c r fun w e => hw ⟨w, e⟩

/-- Region 4 leaves every buffer but its output array: a buffer it does not stage is untouched, and an input window's
    array is only read. -/
theorem kept8 (c : Dev nD) (r : Ref sig .tc) (h : r ≠ main_v59) :
    W8 m ρ c (Proc.devRef .tc r) = W7 m ρ c (Proc.devRef .tc r) := by
  by_cases hw : ∃ w, Pipeline.arrRef spec4 w = r
  · obtain ⟨w, rfl⟩ := hw
    match w with
    | ⟨0, _⟩ => exact (W8_arr m ρ c 0).trans (((dat4 (V7 m ρ) c).arrAt_in 0 rfl _).trans (A_eq4 (V7 m ρ) c 0))
    | ⟨1, _⟩ => exact (W8_arr m ρ c 1).trans (((dat4 (V7 m ρ) c).arrAt_in 1 rfl _).trans (A_eq4 (V7 m ρ) c 1))
    | ⟨2, _⟩ => exact absurd rfl h
  · exact W8_of_ne m ρ c r fun w e => hw ⟨w, e⟩

/-- The stretch of host operations before boundary 9 leaves every buffer it does not write. -/
theorem kept9 (c : Dev nD) (r : Ref sig .tc) (h : r ∉ written5) :
    W9 m ρ c (Proc.devRef .tc r) = W8 m ρ c (Proc.devRef .tc r) :=
  StableHlo.after_of_writes_sub hostOps5 _ written5_all h

/-- Region 5 leaves every buffer but its output array: a buffer it does not stage is untouched, and an input window's
    array is only read. -/
theorem kept10 (c : Dev nD) (r : Ref sig .tc) (h : r ≠ main_v73) :
    W10 m ρ c (Proc.devRef .tc r) = W9 m ρ c (Proc.devRef .tc r) := by
  by_cases hw : ∃ w, Pipeline.arrRef spec5 w = r
  · obtain ⟨w, rfl⟩ := hw
    match w with
    | ⟨0, _⟩ => exact (W10_arr m ρ c 0).trans (((dat5 (V9 m ρ) c).arrAt_in 0 rfl _).trans (A_eq5 (V9 m ρ) c 0))
    | ⟨1, _⟩ => exact (W10_arr m ρ c 1).trans (((dat5 (V9 m ρ) c).arrAt_in 1 rfl _).trans (A_eq5 (V9 m ρ) c 1))
    | ⟨2, _⟩ => exact (W10_arr m ρ c 2).trans (((dat5 (V9 m ρ) c).arrAt_in 2 rfl _).trans (A_eq5 (V9 m ρ) c 2))
    | ⟨3, _⟩ => exact (W10_arr m ρ c 3).trans (((dat5 (V9 m ρ) c).arrAt_in 3 rfl _).trans (A_eq5 (V9 m ρ) c 3))
    | ⟨4, _⟩ => exact (W10_arr m ρ c 4).trans (((dat5 (V9 m ρ) c).arrAt_in 4 rfl _).trans (A_eq5 (V9 m ρ) c 4))
    | ⟨5, _⟩ => exact absurd rfl h
  · exact W10_of_ne m ρ c r fun w e => hw ⟨w, e⟩

/-- The stretch of host operations before boundary 11 leaves every buffer it does not write. -/
theorem kept11 (c : Dev nD) (r : Ref sig .tc) (h : r ∉ written6) :
    W11 m ρ c (Proc.devRef .tc r) = W10 m ρ c (Proc.devRef .tc r) :=
  StableHlo.after_of_writes_sub hostOps6 _ written6_all h

/-- Region 6 leaves every buffer but its output array: a buffer it does not stage is untouched, and an input window's
    array is only read. -/
theorem kept12 (c : Dev nD) (r : Ref sig .tc) (h : r ≠ main_v75) :
    W12 m ρ c (Proc.devRef .tc r) = W11 m ρ c (Proc.devRef .tc r) := by
  by_cases hw : ∃ w, Pipeline.arrRef spec6 w = r
  · obtain ⟨w, rfl⟩ := hw
    match w with
    | ⟨0, _⟩ => exact (W12_arr m ρ c 0).trans (((dat6 (V11 m ρ) c).arrAt_in 0 rfl _).trans (A_eq6 (V11 m ρ) c 0))
    | ⟨1, _⟩ => exact (W12_arr m ρ c 1).trans (((dat6 (V11 m ρ) c).arrAt_in 1 rfl _).trans (A_eq6 (V11 m ρ) c 1))
    | ⟨2, _⟩ => exact (W12_arr m ρ c 2).trans (((dat6 (V11 m ρ) c).arrAt_in 2 rfl _).trans (A_eq6 (V11 m ρ) c 2))
    | ⟨3, _⟩ => exact absurd rfl h
  · exact W12_of_ne m ρ c r fun w e => hw ⟨w, e⟩

/-! ## Written by the host stretches -/

/-- The edges' sources, destinations and weights and the nodes' self-loop weights, after the first stretch, are the
    reference's stages of the edge list: the same slices, the same degree count and inverse square root, the same two
    gathers and products. -/
theorem sources (W : Valuation τ sig (Elt Ideal)) :
    StableHlo.after hostOps0 W (Proc.devRef .tc main_v1) = Cert.ReferenceIdeal.Read.val_main_v1 (F := Ideal) (W (Proc.devRef .tc main_arg1)) := by
  after_results
  rfl
theorem destinations (W : Valuation τ sig (Elt Ideal)) :
    StableHlo.after hostOps0 W (Proc.devRef .tc main_v3) = Cert.ReferenceIdeal.Read.val_main_v3 (F := Ideal) (W (Proc.devRef .tc main_arg1)) := by
  after_results
  rfl
theorem edgeWeights (W : Valuation τ sig (Elt Ideal)) :
    StableHlo.after hostOps0 W (Proc.devRef .tc main_v26) = Cert.ReferenceIdeal.Read.val_main_v26 (F := Ideal) (W (Proc.devRef .tc main_arg1)) := by
  after_results_simp <;> rfl
theorem selfWeights (W : Valuation τ sig (Elt Ideal)) :
    StableHlo.after hostOps0 W (Proc.devRef .tc main_v28) = Cert.ReferenceIdeal.Read.val_main_v28 (F := Ideal) (W (Proc.devRef .tc main_arg1)) := by
  after_results
  rfl

/-- After the stretch before region 1: the aggregate's buffer holds the aggregation of the projected features found in
    `main_v29` along the edges, and the bias's buffer the bias as one row. -/
theorem aggregate1 (W : Valuation τ sig (Elt Ideal)) :
    StableHlo.after hostOps1 W (Proc.devRef .tc main_v41)
      = Aggregate.aggregate (F := Ideal) (W (Proc.devRef .tc main_v29)) (W (Proc.devRef .tc main_v1)) (W (Proc.devRef .tc main_v3)) (W (Proc.devRef .tc main_v26)) := by
  after_results
  rfl
theorem bias1 (W : Valuation τ sig (Elt Ideal)) :
    StableHlo.after hostOps1 W (Proc.devRef .tc main_v42)
      = shapeCast S1x128 (W (Proc.devRef .tc main_arg3)) shapeCasts_S128_S1x128 := by
  after_results
  rfl

/-- After the stretch before region 3: the aggregate's buffer holds the aggregation of the projected features found in
    `main_v44` along the edges, and the bias's buffer the bias as one row. -/
theorem aggregate3 (W : Valuation τ sig (Elt Ideal)) :
    StableHlo.after hostOps3 W (Proc.devRef .tc main_v56)
      = Aggregate.aggregate (F := Ideal) (W (Proc.devRef .tc main_v44)) (W (Proc.devRef .tc main_v1)) (W (Proc.devRef .tc main_v3)) (W (Proc.devRef .tc main_v26)) := by
  after_results
  rfl
theorem bias3 (W : Valuation τ sig (Elt Ideal)) :
    StableHlo.after hostOps3 W (Proc.devRef .tc main_v57)
      = shapeCast S1x128 (W (Proc.devRef .tc main_arg5)) shapeCasts_S128_S1x128 := by
  after_results
  rfl

/-- After the stretch before region 5: the aggregate's buffer holds the aggregation of the projected features found in
    `main_v59` along the edges, and the bias's buffer the bias as one row. -/
theorem aggregate5 (W : Valuation τ sig (Elt Ideal)) :
    StableHlo.after hostOps5 W (Proc.devRef .tc main_v71)
      = Aggregate.aggregate (F := Ideal) (W (Proc.devRef .tc main_v59)) (W (Proc.devRef .tc main_v1)) (W (Proc.devRef .tc main_v3)) (W (Proc.devRef .tc main_v26)) := by
  after_results
  rfl
theorem bias5 (W : Valuation τ sig (Elt Ideal)) :
    StableHlo.after hostOps5 W (Proc.devRef .tc main_v72)
      = shapeCast S1x128 (W (Proc.devRef .tc main_arg7)) shapeCasts_S128_S1x128 := by
  after_results
  rfl

/-- The last stretch lays the readout's bias out as one row. -/
theorem bias6 (W : Valuation τ sig (Elt Ideal)) :
    StableHlo.after hostOps6 W (Proc.devRef .tc main_v74)
      = shapeCast S1x64 (W (Proc.devRef .tc main_arg9)) shapeCasts_S64_S1x64 := by
  after_results
  rfl

end Cert.KernelIdeal.Boundaries

end
-- ==== Proof.Layer.lean ====
/-
  The three whole-array functions this certificate turns on, over the extended reals, index by index.

  A graph-convolution layer takes node features `h` (50000 rows of 128), projects every row through a weight matrix,
  aggregates the projected rows of a node's in-neighbours (a gather along the edges, an edge weight, a scatter-add), and
  then, entry by entry, adds the node's own projected row times its self-loop weight and a bias, clamps below at zero and
  adds the layer's input back. The aggregation is the same host computation in both programs; what differs between them is
  only WHERE the projection and the entrywise step are computed. Those two steps, and the final projection with its bias,
  are stated here once:

  * `project x w` : entry (r, c) is the sum over k of x[r, k] · w[k, c];
  * `combine agg p s b h` : entry (r, c) is max ((agg[r, c] + p[r, c] · s[r, 0]) + b[c], 0) + h[r, c];
  * `readout x w b` : entry (r, c) is (the sum over k of x[r, k] · w[k, c]) + b[c].

  No law of the extended reals is used anywhere: both programs add and multiply in exactly this grouping.
-/
import Idealize.ShloMosaic.PureOps.Ideal
import Idealize.ShloMosaic.PureOps.Ideal.Laws
import Idealize.ShloMosaic.Lib.ValueIdx

noncomputable section

namespace Cert.Layer

open Idealize.ShloMosaic Idealize.ShloMosaic.ValueIdx

/-- Rows times a square weight matrix: entry (r, c) is the sum over k of x[r, k] · w[k, c]. -/
def project (x : FVec Ideal ⟨2, ![50000, 128]⟩ .f32) (w : FVec Ideal ⟨2, ![128, 128]⟩ .f32) :
    FVec Ideal ⟨2, ![50000, 128]⟩ .f32 :=
  fun i => ∑ k : Fin 128, x (ix2 (i 0) k) * w (ix2 k (i 1))

/-- The entrywise step of a layer: the aggregate plus the node's own projected row scaled by its self-loop weight (one
    weight per row), plus the bias (one per column), clamped below at zero, plus the layer's input. -/
def combine (agg p : FVec Ideal ⟨2, ![50000, 128]⟩ .f32) (s : FVec Ideal ⟨2, ![50000, 1]⟩ .f32)
    (b : FVec Ideal ⟨1, ![128]⟩ .f32) (h : FVec Ideal ⟨2, ![50000, 128]⟩ .f32) :
    FVec Ideal ⟨2, ![50000, 128]⟩ .f32 :=
  fun i => max ((agg i + p i * s (ix2 (i 0) 0)) + b (ix1 (i 1))) 0 + h i

/-- The last projection, to 64 columns, with its bias: entry (r, c) is (the sum over k of x[r, k] · w[k, c]) + b[c]. -/
def readout (x : FVec Ideal ⟨2, ![50000, 128]⟩ .f32) (w : FVec Ideal ⟨2, ![128, 64]⟩ .f32)
    (b : FVec Ideal ⟨1, ![64]⟩ .f32) : FVec Ideal ⟨2, ![50000, 64]⟩ .f32 :=
  fun i => (∑ k : Fin 128, x (ix2 (i 0) k) * w (ix2 k (i 1))) + b (ix1 (i 1))

end Cert.Layer

end
-- ==== Proof.Project0.lean ====
/-
  Region 0 of the kernel program: one projection of the node features through a weight matrix, computed block by block.

  The grid has 25 points. Point t is handed rows 2000·t … 2000·t + 1999 of the feature array and the whole 128 × 128
  weight matrix, multiplies them into a zero accumulator (the change of float format on the way in is the identity over the
  extended reals), and writes the 2000 × 128 product back to the same rows of the output array. Entry (r, c) of a block's
  product depends on row r of the block, that is on row 2000·t + r of the feature array, and on column c of the weights:
  it is the sum over k of x[2000·t + r, k] · w[k, c]. The 25 blocks tile the 50000 rows, so the output array ends as
  `Layer.project` of the two arrays as the region found them.
-/
import proofs.«116004_j4913442587254_1_alg».proof.Proof.Gen.KernelIdeal.Frame
import proofs.«116004_j4913442587254_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.KernelIdeal.Project0

open Cert.KernelIdeal Cert.KernelIdeal.Gen
open Idealize.ShloMosaic Idealize.ShloMosaic.TcCoe Idealize.SL.Sem Idealize.ShloMosaic.ValueIdx

/-! ## One block's product, entry by entry -/

theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_inner (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_inner (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, c) of a block's product is the sum over k of x[r, k] · w[k, c]. -/
theorem product_apply (x : Vec Ideal S2000x128 .f32) (w : Vec Ideal S128x128 .f32) (j : S2000x128.Idx) :
    k0_pay1 (F := Ideal) x w j = ∑ k : Fin 128, x (ix2 (j 0) k) * w (ix2 k (j 1)) := by
  unfold k0_pay1
  simp only [matmul, shapeCast_self]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (j 0) k := funext fun a => Fin.ext (by
    match a with
    | ⟨0, _⟩ => exact lhs_row _ _
    | ⟨1, _⟩ => exact (lhs_inner _ _).trans hk)
  have er : dot_S2000x128_S128x128_S2000x128_1_0_0_1_n_n.rhsIdx j ((contrEquiv1 dot_S2000x128_S128x128_S2000x128_1_0_0_1_n_n 128 rfl rfl).symm k) = ix2 k (j 1) := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where the windows sit at a point: the feature block and the output block at row-block t, column-block 0; the weights whole. -/
theorem where_blocks : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the projection of the arrays as the region found them. -/
theorem written_back (c : Dev nD) (t : Fin cfg0.N) :
    (dat0 (F := Ideal) V c).flushed 2 t
      = ((cfg0.win 2).blk t).view.read (Elt Ideal) (Cert.Layer.project (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := where_blocks t
  funext j
  show k0_pay1 (F := Ideal) (iblk0 V c 0 t) (iblk0 V c 1 t) j = Cert.Layer.project (V c main_arg0) (V c main_arg2) (((cfg0.win 2).blk t).view.emb j)
  refine (product_apply (iblk0 V c 0 t) (iblk0 V c 1 t) j).trans ?_
  unfold Cert.Layer.project
  refine Finset.sum_congr rfl fun k _ => ?_
  have hx : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  have hw : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [hx, hw]

/-- An index of the output array is in point t's block iff each coordinate is in the block's range on its axis. -/
theorem in_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole (Pipeline.arrRef spec0 2)).slice (win0_2.rect t)).set ↔ _
  rw [View.set_slice_whole, Rect.mem_set_unit]
  exact Iff.rfl

/-- The 25 blocks tile the array: row r lies in the block of point r / 2000. -/
theorem tiled (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_2 _, ?_⟩
  rw [in_block]
  obtain ⟨-, -, -, -, e4, e5⟩ := where_blocks ⟨(i 0).val / 2000, by rw [hN]; omega⟩
  intro a
  match a with
  | ⟨0, _⟩ => show win0_2.index _ (0 : Fin 2) * 2000 ≤ (i 0).val ∧ (i 0).val < win0_2.index _ (0 : Fin 2) * 2000 + 2000; rw [e4]; dsimp only; omega
  | ⟨1, _⟩ => show win0_2.index _ (1 : Fin 2) * 128 ≤ (i 1).val ∧ (i 1).val < win0_2.index _ (1 : Fin 2) * 128 + 128; rw [e5]; omega

/-- After the region its output array holds the projection of the feature array through the weights, both as the region
    found them. -/
theorem final (c : Dev nD) :
    (dat0 (F := Ideal) V c).arrAt 2 cfg0.N = Cert.Layer.project (V c main_arg0) (V c main_arg2) :=
  (dat0 (F := Ideal) V c).arrAt_eq_of_cover 2 _ (fun t _ => written_back V c t) (tiled)

end Cert.KernelIdeal.Project0

end
-- ==== Proof.Project2.lean ====
/-
  Region 2 of the kernel program: one projection of the node features through a weight matrix, computed block by block.

  The grid has 25 points. Point t is handed rows 2000·t … 2000·t + 1999 of the feature array and the whole 128 × 128
  weight matrix, multiplies them into a zero accumulator (the change of float format on the way in is the identity over the
  extended reals), and writes the 2000 × 128 product back to the same rows of the output array. Entry (r, c) of a block's
  product depends on row r of the block, that is on row 2000·t + r of the feature array, and on column c of the weights:
  it is the sum over k of x[2000·t + r, k] · w[k, c]. The 25 blocks tile the 50000 rows, so the output array ends as
  `Layer.project` of the two arrays as the region found them.
-/
import proofs.«116004_j4913442587254_1_alg».proof.Proof.Gen.KernelIdeal.Frame
import proofs.«116004_j4913442587254_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.KernelIdeal.Project2

open Cert.KernelIdeal Cert.KernelIdeal.Gen
open Idealize.ShloMosaic Idealize.ShloMosaic.TcCoe Idealize.SL.Sem Idealize.ShloMosaic.ValueIdx

/-! ## One block's product, entry by entry -/

theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_inner (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_inner (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, c) of a block's product is the sum over k of x[r, k] · w[k, c]. -/
theorem product_apply (x : Vec Ideal S2000x128 .f32) (w : Vec Ideal S128x128 .f32) (j : S2000x128.Idx) :
    k2_pay1 (F := Ideal) x w j = ∑ k : Fin 128, x (ix2 (j 0) k) * w (ix2 k (j 1)) := by
  unfold k2_pay1
  simp only [matmul, shapeCast_self]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (j 0) k := funext fun a => Fin.ext (by
    match a with
    | ⟨0, _⟩ => exact lhs_row _ _
    | ⟨1, _⟩ => exact (lhs_inner _ _).trans hk)
  have er : dot_S2000x128_S128x128_S2000x128_1_0_0_1_n_n.rhsIdx j ((contrEquiv1 dot_S2000x128_S128x128_S2000x128_1_0_0_1_n_n 128 rfl rfl).symm k) = ix2 k (j 1) := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where the windows sit at a point: the feature block and the output block at row-block t, column-block 0; the weights whole. -/
theorem where_blocks : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the projection of the arrays as the region found them. -/
theorem written_back (c : Dev nD) (t : Fin cfg2.N) :
    (dat2 (F := Ideal) V c).flushed 2 t
      = ((cfg2.win 2).blk t).view.read (Elt Ideal) (Cert.Layer.project (V c main_v43) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e0, e1, e2, e3, e4, e5⟩ := where_blocks t
  funext j
  show k2_pay1 (F := Ideal) (iblk2 V c 0 t) (iblk2 V c 1 t) j = Cert.Layer.project (V c main_v43) (V c main_arg4) (((cfg2.win 2).blk t).view.emb j)
  refine (product_apply (iblk2 V c 0 t) (iblk2 V c 1 t) j).trans ?_
  unfold Cert.Layer.project
  refine Finset.sum_congr rfl fun k _ => ?_
  have hx : iblk2 V c 0 t (ix2 (j 0) k) = V c main_v43 (ix2 ((((cfg2.win 2).blk t).view.emb j) 0) k) := by
    show V c main_v43 (((cfg2.win 0).blk t).view.emb (ix2 (j 0) k)) = _
    refine congrArg (V c main_v43) (funext fun a => Fin.ext ?_)
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hw : iblk2 V c 1 t (ix2 k (j 1)) = V c main_arg4 (ix2 k ((((cfg2.win 2).blk t).view.emb j) 1)) := by
    show V c main_arg4 (((cfg2.win 1).blk t).view.emb (ix2 k (j 1))) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [hx, hw]

/-- An index of the output array is in point t's block iff each coordinate is in the block's range on its axis. -/
theorem in_block (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole (Pipeline.arrRef spec2 2)).slice (win2_2.rect t)).set ↔ _
  rw [View.set_slice_whole, Rect.mem_set_unit]
  exact Iff.rfl

/-- The 25 blocks tile the array: row r lies in the block of point r / 2000. -/
theorem tiled (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_2 _, ?_⟩
  rw [in_block]
  obtain ⟨-, -, -, -, e4, e5⟩ := where_blocks ⟨(i 0).val / 2000, by rw [hN]; omega⟩
  intro a
  match a with
  | ⟨0, _⟩ => show win2_2.index _ (0 : Fin 2) * 2000 ≤ (i 0).val ∧ (i 0).val < win2_2.index _ (0 : Fin 2) * 2000 + 2000; rw [e4]; dsimp only; omega
  | ⟨1, _⟩ => show win2_2.index _ (1 : Fin 2) * 128 ≤ (i 1).val ∧ (i 1).val < win2_2.index _ (1 : Fin 2) * 128 + 128; rw [e5]; omega

/-- After the region its output array holds the projection of the feature array through the weights, both as the region
    found them. -/
theorem final (c : Dev nD) :
    (dat2 (F := Ideal) V c).arrAt 2 cfg2.N = Cert.Layer.project (V c main_v43) (V c main_arg4) :=
  (dat2 (F := Ideal) V c).arrAt_eq_of_cover 2 _ (fun t _ => written_back V c t) (tiled)

end Cert.KernelIdeal.Project2

end
-- ==== Proof.Project4.lean ====
/-
  Region 4 of the kernel program: one projection of the node features through a weight matrix, computed block by block.

  The grid has 25 points. Point t is handed rows 2000·t … 2000·t + 1999 of the feature array and the whole 128 × 128
  weight matrix, multiplies them into a zero accumulator (the change of float format on the way in is the identity over the
  extended reals), and writes the 2000 × 128 product back to the same rows of the output array. Entry (r, c) of a block's
  product depends on row r of the block, that is on row 2000·t + r of the feature array, and on column c of the weights:
  it is the sum over k of x[2000·t + r, k] · w[k, c]. The 25 blocks tile the 50000 rows, so the output array ends as
  `Layer.project` of the two arrays as the region found them.
-/
import proofs.«116004_j4913442587254_1_alg».proof.Proof.Gen.KernelIdeal.Frame
import proofs.«116004_j4913442587254_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.KernelIdeal.Project4

open Cert.KernelIdeal Cert.KernelIdeal.Gen
open Idealize.ShloMosaic Idealize.ShloMosaic.TcCoe Idealize.SL.Sem Idealize.ShloMosaic.ValueIdx

/-! ## One block's product, entry by entry -/

theorem lhs_row (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_inner (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q
theorem rhs_inner (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q
theorem rhs_col (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Entry (r, c) of a block's product is the sum over k of x[r, k] · w[k, c]. -/
theorem product_apply (x : Vec Ideal S2000x128 .f32) (w : Vec Ideal S128x128 .f32) (j : S2000x128.Idx) :
    k4_pay1 (F := Ideal) x w j = ∑ k : Fin 128, x (ix2 (j 0) k) * w (ix2 k (j 1)) := by
  unfold k4_pay1
  simp only [matmul, shapeCast_self]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx j ((contrEquiv1 dot_S2000x128_S128x128_S2000x128_1_0_0_1_n_n 128 rfl rfl).symm k) = ix2 (j 0) k := funext fun a => Fin.ext (by
    match a with
    | ⟨0, _⟩ => exact lhs_row _ _
    | ⟨1, _⟩ => exact (lhs_inner _ _).trans hk)
  have er : dot_S2000x128_S128x128_S2000x128_1_0_0_1_n_n.rhsIdx j ((contrEquiv1 dot_S2000x128_S128x128_S2000x128_1_0_0_1_n_n 128 rfl rfl).symm k) = ix2 k (j 1) := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where the windows sit at a point: the feature block and the output block at row-block t, column-block 0; the weights whole. -/
theorem where_blocks : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the projection of the arrays as the region found them. -/
theorem written_back (c : Dev nD) (t : Fin cfg4.N) :
    (dat4 (F := Ideal) V c).flushed 2 t
      = ((cfg4.win 2).blk t).view.read (Elt Ideal) (Cert.Layer.project (V c main_v58) (V c main_arg6)) := by
  show (cfg4.win 2).cut (grid4.coords t) ((dat4 V c).after 2 t) = _
  rw [after4_2]
  unfold out4_2
  rw [View.canon_unit_zero origin]
  simp only [View.ld_unit_zero (S := S2000x128) origin, View.ld_unit_zero (S := S128x128) origin]
  obtain ⟨e0, e1, e2, e3, e4, e5⟩ := where_blocks t
  funext j
  show k4_pay1 (F := Ideal) (iblk4 V c 0 t) (iblk4 V c 1 t) j = Cert.Layer.project (V c main_v58) (V c main_arg6) (((cfg4.win 2).blk t).view.emb j)
  refine (product_apply (iblk4 V c 0 t) (iblk4 V c 1 t) j).trans ?_
  unfold Cert.Layer.project
  refine Finset.sum_congr rfl fun k _ => ?_
  have hx : iblk4 V c 0 t (ix2 (j 0) k) = V c main_v58 (ix2 ((((cfg4.win 2).blk t).view.emb j) 0) k) := by
    show V c main_v58 (((cfg4.win 0).blk t).view.emb (ix2 (j 0) k)) = _
    refine congrArg (V c main_v58) (funext fun a => Fin.ext ?_)
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 128 + 1 * k.val = k.val; omega
  have hw : iblk4 V c 1 t (ix2 k (j 1)) = V c main_arg6 (ix2 k ((((cfg4.win 2).blk t).view.emb j) 1)) := by
    show V c main_arg6 (((cfg4.win 1).blk t).view.emb (ix2 k (j 1))) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 128 + 1 * (j 1).val = win4_2.index t (1 : Fin 2) * 128 + 1 * (j 1).val; omega
  rw [hx, hw]

/-- An index of the output array is in point t's block iff each coordinate is in the block's range on its axis. -/
theorem in_block (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole (Pipeline.arrRef spec4 2)).slice (win4_2.rect t)).set ↔ _
  rw [View.set_slice_whole, Rect.mem_set_unit]
  exact Iff.rfl

/-- The 25 blocks tile the array: row r lies in the block of point r / 2000. -/
theorem tiled (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  refine ⟨⟨(i 0).val / 2000, by rw [hN]; omega⟩, flush4_2 _, ?_⟩
  rw [in_block]
  obtain ⟨-, -, -, -, e4, e5⟩ := where_blocks ⟨(i 0).val / 2000, by rw [hN]; omega⟩
  intro a
  match a with
  | ⟨0, _⟩ => show win4_2.index _ (0 : Fin 2) * 2000 ≤ (i 0).val ∧ (i 0).val < win4_2.index _ (0 : Fin 2) * 2000 + 2000; rw [e4]; dsimp only; omega
  | ⟨1, _⟩ => show win4_2.index _ (1 : Fin 2) * 128 ≤ (i 1).val ∧ (i 1).val < win4_2.index _ (1 : Fin 2) * 128 + 128; rw [e5]; omega

/-- After the region its output array holds the projection of the feature array through the weights, both as the region
    found them. -/
theorem final (c : Dev nD) :
    (dat4 (F := Ideal) V c).arrAt 2 cfg4.N = Cert.Layer.project (V c main_v58) (V c main_arg6) :=
  (dat4 (F := Ideal) V c).arrAt_eq_of_cover 2 _ (fun t _ => written_back V c t) (tiled)

end Cert.KernelIdeal.Project4

end
-- ==== Proof.Combine1.lean ====
/-
  A region of the kernel program that computes the entrywise step of a layer, block by block.

  The grid has 25 points. Point t is handed rows 2000·t … 2000·t + 1999 of four arrays — the aggregate, the projected
  rows, the self weights (one column) and the layer's input — and the whole one-row bias array. Entry (r, c) of the block
  it writes is the aggregate plus the projected entry times the row's self weight, plus the bias of column c, clamped
  below at zero, plus the layer's input: it depends on row 2000·t + r of the four row-blocked arrays (entry (r, c) of
  each, entry (r, 0) of the self weights) and on entry (0, c) of the bias. The block goes back to the same rows of the
  output array, and the 25 blocks tile its 50000 rows, so the output array ends as `Layer.combine` of the five arrays as
  the region found them.
-/
import proofs.«116004_j4913442587254_1_alg».proof.Proof.Gen.KernelIdeal.Frame
import proofs.«116004_j4913442587254_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine1

open Cert.KernelIdeal Cert.KernelIdeal.Gen
open Idealize.ShloMosaic Idealize.ShloMosaic.TcCoe Idealize.SL.Sem Idealize.ShloMosaic.ValueIdx

/-! ## One block's stored value, entry by entry -/

/-- The zero offsets of a whole-buffer access, as the constant function. -/
theorem zeros : (![0, 0] : Fin 2 → Nat) = fun _ => 0 := funext fun a => by fin_cases a <;> rfl

/-- The body's stored value at an entry (r, c) of the block: the aggregate plus the projected row times the row's
    self weight (column 0 of the weight block), plus the bias at column c (row 0 of the bias block), clamped below at
    zero, plus the layer's input. -/
theorem step_apply (x0 x1 : Vec Ideal S2000x128 .f32) (x2 : Vec Ideal S2000x1 .f32) (x3 : Vec Ideal S1x128 .f32)
    (x4 : Vec Ideal S2000x128 .f32) (j : S2000x128.Idx) :
    k1_pay1 x0 x1 x2 x3 x4 j = max ((x0 j + x1 j * x2 (ix2 (j 0) 0)) + x3 (ix2 0 (j 1))) 0 + x4 j := by
  have e2 : broadcastTo S2000x128 x2 broadcasts_S2000x1_S2000x128 j = x2 (ix2 (j 0) 0) :=
    broadcastTo_apply x2 broadcasts_S2000x1_S2000x128 j (ix2 (j 0) 0) fun a => by
      match a with
      | ⟨0, _⟩ => rfl
      | ⟨1, _⟩ => rfl
  have e3 : broadcastTo S2000x128 x3 broadcasts_S1x128_S2000x128 j = x3 (ix2 0 (j 1)) :=
    broadcastTo_apply x3 broadcasts_S1x128_S2000x128 j (ix2 0 (j 1)) fun a => by
      match a with
      | ⟨0, _⟩ => rfl
      | ⟨1, _⟩ => rfl
  unfold k1_pay1
  simp only [shapeCast_self]
  show max ((x0 j + x1 j * broadcastTo S2000x128 x2 broadcasts_S2000x1_S2000x128 j)
      + broadcastTo S2000x128 x3 broadcasts_S1x128_S2000x128 j) (Ideal.ofBits .f32 0x00000000#32) + x4 j = _
  rw [e2, e3, Ideal.ofBits_zero_f32]

/-- The entrywise step at an array entry (r, c), from the five values it combines: the aggregate, the projected row and
    the layer's input at (r, c), the self weight of row r, and the bias of column c. -/
theorem combine_at (a0 a1 : FVec Ideal S50000x128 .f32) (a2 : FVec Ideal S50000x1 .f32) (a3 : FVec Ideal S1x128 .f32)
    (a4 : FVec Ideal S50000x128 .f32) (i : S50000x128.Idx) (y0 y1 y2 y3 y4 : EReal)
    (h0 : y0 = a0 i) (h1 : y1 = a1 i) (h2 : y2 = a2 (ix2 (i 0) 0)) (h3 : y3 = a3 (ix2 0 (i 1))) (h4 : y4 = a4 i) :
    max ((y0 + y1 * y2) + y3) 0 + y4 = Cert.Layer.combine a0 a1 a2 (fun j => a3 (ix2 0 (j 0))) a4 i := by
  subst h0 h1 h2 h3 h4; rfl

/-! ## From the blocks to the array -/

variable (V : (c : Dev nD) → (b : Ref sig .tc) → Buf (Elt Ideal) ((c : Thread nD τ).loc b))

/-- The printed index maps over the 25 points: point t's block of every row-blocked window is block t along the rows
    and block 0 along the columns; the bias window's one block is block (0, 0) at every point. -/
theorem index_facts : ∀ t : Fin cfg1.N,
    win1_0.index t (0 : Fin 2) = win1_5.index t (0 : Fin 2) ∧ win1_0.index t (1 : Fin 2) = win1_5.index t (1 : Fin 2)
    ∧ win1_1.index t (0 : Fin 2) = win1_5.index t (0 : Fin 2) ∧ win1_1.index t (1 : Fin 2) = win1_5.index t (1 : Fin 2)
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = win1_5.index t (1 : Fin 2)
    ∧ win1_5.index t (0 : Fin 2) = t.val ∧ win1_5.index t (1 : Fin 2) = 0 :=
  (by decide +kernel : ∀ t : Fin grid1.N, _)

/-- Entry (r, c) of point t's block of the aggregate is entry (2000·t + r, c) of the array: where the output block's
    entry (r, c) sits in the output array. -/
theorem read_aggregate (c : Dev nD) (t : Fin cfg1.N) (j : S2000x128.Idx) :
    iblk1 V c 0 t j = V c main_v41 (((cfg1.win 5).blk t).view.emb j) := by
  obtain ⟨e00, e01, -, -, -, -, -, -, -, -, -, -⟩ := index_facts t
  show V c main_v41 (((cfg1.win 0).blk t).view.emb j) = _
  refine congrArg (V c main_v41) (funext fun a => Fin.ext ?_)
  match a with
  | ⟨0, _⟩ => show win1_0.index t (0 : Fin 2) * 2000 + 1 * (j 0).val = win1_5.index t (0 : Fin 2) * 2000 + 1 * (j 0).val; omega
  | ⟨1, _⟩ => show win1_0.index t (1 : Fin 2) * 128 + 1 * (j 1).val = win1_5.index t (1 : Fin 2) * 128 + 1 * (j 1).val; omega

/-- The same for the projected rows. -/
theorem read_projected (c : Dev nD) (t : Fin cfg1.N) (j : S2000x128.Idx) :
    iblk1 V c 1 t j = V c main_v29 (((cfg1.win 5).blk t).view.emb j) := by
  obtain ⟨-, -, e10, e11, -, -, -, -, -, -, -, -⟩ := index_facts t
  show V c main_v29 (((cfg1.win 1).blk t).view.emb j) = _
  refine congrArg (V c main_v29) (funext fun a => Fin.ext ?_)
  match a with
  | ⟨0, _⟩ => show win1_1.index t (0 : Fin 2) * 2000 + 1 * (j 0).val = win1_5.index t (0 : Fin 2) * 2000 + 1 * (j 0).val; omega
  | ⟨1, _⟩ => show win1_1.index t (1 : Fin 2) * 128 + 1 * (j 1).val = win1_5.index t (1 : Fin 2) * 128 + 1 * (j 1).val; omega

/-- Entry (r, 0) of point t's block of the self weights is the weight of row 2000·t + r. -/
theorem read_weight (c : Dev nD) (t : Fin cfg1.N) (j : S2000x128.Idx) :
    iblk1 V c 2 t (ix2 (j 0) 0) = V c main_v28 (ix2 ((((cfg1.win 5).blk t).view.emb j) 0) 0) := by
  obtain ⟨-, -, -, -, e20, e21, -, -, -, -, -, -⟩ := index_facts t
  show V c main_v28 (((cfg1.win 2).blk t).view.emb (ix2 (j 0) 0)) = _
  refine congrArg (V c main_v28) (funext fun a => Fin.ext ?_)
  match a with
  | ⟨0, _⟩ => show win1_2.index t (0 : Fin 2) * 2000 + 1 * (j 0).val = win1_5.index t (0 : Fin 2) * 2000 + 1 * (j 0).val; omega
  | ⟨1, _⟩ => show win1_2.index t (1 : Fin 2) * 1 + 1 * 0 = 0; omega

/-- Entry (0, c) of the bias window's one block, at every point, is the bias of column c. -/
theorem read_bias (c : Dev nD) (t : Fin cfg1.N) (j : S2000x128.Idx) :
    iblk1 V c 3 t (ix2 0 (j 1)) = V c main_v42 (ix2 0 ((((cfg1.win 5).blk t).view.emb j) 1)) := by
  obtain ⟨-, -, -, -, -, -, e30, e31, -, -, -, e51⟩ := index_facts t
  show V c main_v42 (((cfg1.win 3).blk t).view.emb (ix2 0 (j 1))) = _
  refine congrArg (V c main_v42) (funext fun a => Fin.ext ?_)
  match a with
  | ⟨0, _⟩ => show win1_3.index t (0 : Fin 2) * 1 + 1 * 0 = 0; omega
  | ⟨1, _⟩ => show win1_3.index t (1 : Fin 2) * 128 + 1 * (j 1).val = win1_5.index t (1 : Fin 2) * 128 + 1 * (j 1).val; omega

/-- Entry (r, c) of point t's block of the layer's input is entry (2000·t + r, c) of the array. -/
theorem read_input (c : Dev nD) (t : Fin cfg1.N) (j : S2000x128.Idx) :
    iblk1 V c 4 t j = V c main_arg0 (((cfg1.win 5).blk t).view.emb j) := by
  obtain ⟨-, -, -, -, -, -, -, -, e40, e41, -, -⟩ := index_facts t
  show V c main_arg0 (((cfg1.win 4).blk t).view.emb j) = _
  refine congrArg (V c main_arg0) (funext fun a => Fin.ext ?_)
  match a with
  | ⟨0, _⟩ => show win1_4.index t (0 : Fin 2) * 2000 + 1 * (j 0).val = win1_5.index t (0 : Fin 2) * 2000 + 1 * (j 0).val; omega
  | ⟨1, _⟩ => show win1_4.index t (1 : Fin 2) * 128 + 1 * (j 1).val = win1_5.index t (1 : Fin 2) * 128 + 1 * (j 1).val; omega

/-- What point t writes back is the body's stored value of the five input blocks at t. -/
theorem flushed_stored (c : Dev nD) (t : Fin cfg1.N) :
    (dat1 (F := Ideal) V c).flushed 5 t
      = k1_pay1 (iblk1 V c 0 t) (iblk1 V c 1 t) (iblk1 V c 2 t) (iblk1 V c 3 t) (iblk1 V c 4 t) := by
  show (cfg1.win 5).cut (grid1.coords t) ((dat1 V c).after 5 t) = _
  rw [after1_5]
  unfold out1_5
  rw [View.canon_unit_zero zeros]
  simp only [View.ld_unit_zero (S := S2000x128) zeros, View.ld_unit_zero (S := S2000x1) zeros, View.ld_unit_zero (S := S1x128) zeros]
  rfl

/-- What point t writes back is block t of the entrywise step of the five arrays as the region found them: entry (r, c)
    of the block reads row 2000·t + r of the row-blocked arrays and column c of the bias. -/
theorem written_back (c : Dev nD) (t : Fin cfg1.N) :
    (dat1 (F := Ideal) V c).flushed 5 t = ((cfg1.win 5).blk t).view.read (Elt Ideal)
      (Cert.Layer.combine (V c main_v41) (V c main_v29) (V c main_v28) (fun j => V c main_v42 (ix2 0 (j 0))) (V c main_arg0)) := by
  refine (flushed_stored V c t).trans (funext fun j => ?_)
  refine (step_apply (iblk1 V c 0 t) (iblk1 V c 1 t) (iblk1 V c 2 t) (iblk1 V c 3 t) (iblk1 V c 4 t) j).trans ?_
  exact combine_at (V c main_v41) (V c main_v29) (V c main_v28) (V c main_v42) (V c main_arg0)
    (((cfg1.win 5).blk t).view.emb j) _ _ _ _ _
    (read_aggregate V c t j) (read_projected V c t j) (read_weight V c t j) (read_bias V c t j) (read_input V c t j)

/-- An index of the output array is in point t's block iff each coordinate is in the block's range on its axis. -/
theorem in_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole (Pipeline.arrRef spec1 5)).slice (win1_5.rect t)).set ↔ _
  rw [View.set_slice_whole, Rect.mem_set_unit]
  exact Iff.rfl

/-- The 25 blocks tile the array: row r lies in the block of point r / 2000. -/
theorem tiled (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_5 _, ?_⟩
  rw [in_block]
  obtain ⟨-, -, -, -, -, -, -, -, -, -, e50, e51⟩ := index_facts ⟨(i 0).val / 2000, by rw [hN]; omega⟩
  intro a
  match a with
  | ⟨0, _⟩ => show win1_5.index _ (0 : Fin 2) * 2000 ≤ (i 0).val ∧ (i 0).val < win1_5.index _ (0 : Fin 2) * 2000 + 2000; rw [e50]; dsimp only; omega
  | ⟨1, _⟩ => show win1_5.index _ (1 : Fin 2) * 128 ≤ (i 1).val ∧ (i 1).val < win1_5.index _ (1 : Fin 2) * 128 + 128; rw [e51]; omega

/-- After the region its output array holds the entrywise step of the five input arrays as the region found them. -/
theorem final (c : Dev nD) :
    (dat1 (F := Ideal) V c).arrAt 5 cfg1.N
      = Cert.Layer.combine (V c main_v41) (V c main_v29) (V c main_v28) (fun j => V c main_v42 (ix2 0 (j 0))) (V c main_arg0) :=
  (dat1 (F := Ideal) V c).arrAt_eq_of_cover 5 _ (fun t _ => written_back V c t) tiled

end Cert.KernelIdeal.Combine1

end
-- ==== Proof.Combine3.lean ====
/-
  A region of the kernel program that computes the entrywise step of a layer, block by block.

  The grid has 25 points. Point t is handed rows 2000·t … 2000·t + 1999 of four arrays — the aggregate, the projected
  rows, the self weights (one column) and the layer's input — and the whole one-row bias array. Entry (r, c) of the block
  it writes is the aggregate plus the projected entry times the row's self weight, plus the bias of column c, clamped
  below at zero, plus the layer's input: it depends on row 2000·t + r of the four row-blocked arrays (entry (r, c) of
  each, entry (r, 0) of the self weights) and on entry (0, c) of the bias. The block goes back to the same rows of the
  output array, and the 25 blocks tile its 50000 rows, so the output array ends as `Layer.combine` of the five arrays as
  the region found them.
-/
import proofs.«116004_j4913442587254_1_alg».proof.Proof.Gen.KernelIdeal.Frame
import proofs.«116004_j4913442587254_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine3

open Cert.KernelIdeal Cert.KernelIdeal.Gen
open Idealize.ShloMosaic Idealize.ShloMosaic.TcCoe Idealize.SL.Sem Idealize.ShloMosaic.ValueIdx

/-! ## One block's stored value, entry by entry -/

/-- The zero offsets of a whole-buffer access, as the constant function. -/
theorem zeros : (![0, 0] : Fin 2 → Nat) = fun _ => 0 := funext fun a => by fin_cases a <;> rfl

/-- The body's stored value at an entry (r, c) of the block: the aggregate plus the projected row times the row's
    self weight (column 0 of the weight block), plus the bias at column c (row 0 of the bias block), clamped below at
    zero, plus the layer's input. -/
theorem step_apply (x0 x1 : Vec Ideal S2000x128 .f32) (x2 : Vec Ideal S2000x1 .f32) (x3 : Vec Ideal S1x128 .f32)
    (x4 : Vec Ideal S2000x128 .f32) (j : S2000x128.Idx) :
    k3_pay1 x0 x1 x2 x3 x4 j = max ((x0 j + x1 j * x2 (ix2 (j 0) 0)) + x3 (ix2 0 (j 1))) 0 + x4 j := by
  have e2 : broadcastTo S2000x128 x2 broadcasts_S2000x1_S2000x128 j = x2 (ix2 (j 0) 0) :=
    broadcastTo_apply x2 broadcasts_S2000x1_S2000x128 j (ix2 (j 0) 0) fun a => by
      match a with
      | ⟨0, _⟩ => rfl
      | ⟨1, _⟩ => rfl
  have e3 : broadcastTo S2000x128 x3 broadcasts_S1x128_S2000x128 j = x3 (ix2 0 (j 1)) :=
    broadcastTo_apply x3 broadcasts_S1x128_S2000x128 j (ix2 0 (j 1)) fun a => by
      match a with
      | ⟨0, _⟩ => rfl
      | ⟨1, _⟩ => rfl
  unfold k3_pay1
  simp only [shapeCast_self]
  show max ((x0 j + x1 j * broadcastTo S2000x128 x2 broadcasts_S2000x1_S2000x128 j)
      + broadcastTo S2000x128 x3 broadcasts_S1x128_S2000x128 j) (Ideal.ofBits .f32 0x00000000#32) + x4 j = _
  rw [e2, e3, Ideal.ofBits_zero_f32]

/-- The entrywise step at an array entry (r, c), from the five values it combines: the aggregate, the projected row and
    the layer's input at (r, c), the self weight of row r, and the bias of column c. -/
theorem combine_at (a0 a1 : FVec Ideal S50000x128 .f32) (a2 : FVec Ideal S50000x1 .f32) (a3 : FVec Ideal S1x128 .f32)
    (a4 : FVec Ideal S50000x128 .f32) (i : S50000x128.Idx) (y0 y1 y2 y3 y4 : EReal)
    (h0 : y0 = a0 i) (h1 : y1 = a1 i) (h2 : y2 = a2 (ix2 (i 0) 0)) (h3 : y3 = a3 (ix2 0 (i 1))) (h4 : y4 = a4 i) :
    max ((y0 + y1 * y2) + y3) 0 + y4 = Cert.Layer.combine a0 a1 a2 (fun j => a3 (ix2 0 (j 0))) a4 i := by
  subst h0 h1 h2 h3 h4; rfl

/-! ## From the blocks to the array -/

variable (V : (c : Dev nD) → (b : Ref sig .tc) → Buf (Elt Ideal) ((c : Thread nD τ).loc b))

/-- The printed index maps over the 25 points: point t's block of every row-blocked window is block t along the rows
    and block 0 along the columns; the bias window's one block is block (0, 0) at every point. -/
theorem index_facts : ∀ t : Fin cfg3.N,
    win3_0.index t (0 : Fin 2) = win3_5.index t (0 : Fin 2) ∧ win3_0.index t (1 : Fin 2) = win3_5.index t (1 : Fin 2)
    ∧ win3_1.index t (0 : Fin 2) = win3_5.index t (0 : Fin 2) ∧ win3_1.index t (1 : Fin 2) = win3_5.index t (1 : Fin 2)
    ∧ win3_2.index t (0 : Fin 2) = win3_5.index t (0 : Fin 2) ∧ win3_2.index t (1 : Fin 2) = 0
    ∧ win3_3.index t (0 : Fin 2) = 0 ∧ win3_3.index t (1 : Fin 2) = 0
    ∧ win3_4.index t (0 : Fin 2) = win3_5.index t (0 : Fin 2) ∧ win3_4.index t (1 : Fin 2) = win3_5.index t (1 : Fin 2)
    ∧ win3_5.index t (0 : Fin 2) = t.val ∧ win3_5.index t (1 : Fin 2) = 0 :=
  (by decide +kernel : ∀ t : Fin grid3.N, _)

/-- Entry (r, c) of point t's block of the aggregate is entry (2000·t + r, c) of the array: where the output block's
    entry (r, c) sits in the output array. -/
theorem read_aggregate (c : Dev nD) (t : Fin cfg3.N) (j : S2000x128.Idx) :
    iblk3 V c 0 t j = V c main_v56 (((cfg3.win 5).blk t).view.emb j) := by
  obtain ⟨e00, e01, -, -, -, -, -, -, -, -, -, -⟩ := index_facts t
  show V c main_v56 (((cfg3.win 0).blk t).view.emb j) = _
  refine congrArg (V c main_v56) (funext fun a => Fin.ext ?_)
  match a with
  | ⟨0, _⟩ => show win3_0.index t (0 : Fin 2) * 2000 + 1 * (j 0).val = win3_5.index t (0 : Fin 2) * 2000 + 1 * (j 0).val; omega
  | ⟨1, _⟩ => show win3_0.index t (1 : Fin 2) * 128 + 1 * (j 1).val = win3_5.index t (1 : Fin 2) * 128 + 1 * (j 1).val; omega

/-- The same for the projected rows. -/
theorem read_projected (c : Dev nD) (t : Fin cfg3.N) (j : S2000x128.Idx) :
    iblk3 V c 1 t j = V c main_v44 (((cfg3.win 5).blk t).view.emb j) := by
  obtain ⟨-, -, e10, e11, -, -, -, -, -, -, -, -⟩ := index_facts t
  show V c main_v44 (((cfg3.win 1).blk t).view.emb j) = _
  refine congrArg (V c main_v44) (funext fun a => Fin.ext ?_)
  match a with
  | ⟨0, _⟩ => show win3_1.index t (0 : Fin 2) * 2000 + 1 * (j 0).val = win3_5.index t (0 : Fin 2) * 2000 + 1 * (j 0).val; omega
  | ⟨1, _⟩ => show win3_1.index t (1 : Fin 2) * 128 + 1 * (j 1).val = win3_5.index t (1 : Fin 2) * 128 + 1 * (j 1).val; omega

/-- Entry (r, 0) of point t's block of the self weights is the weight of row 2000·t + r. -/
theorem read_weight (c : Dev nD) (t : Fin cfg3.N) (j : S2000x128.Idx) :
    iblk3 V c 2 t (ix2 (j 0) 0) = V c main_v28 (ix2 ((((cfg3.win 5).blk t).view.emb j) 0) 0) := by
  obtain ⟨-, -, -, -, e20, e21, -, -, -, -, -, -⟩ := index_facts t
  show V c main_v28 (((cfg3.win 2).blk t).view.emb (ix2 (j 0) 0)) = _
  refine congrArg (V c main_v28) (funext fun a => Fin.ext ?_)
  match a with
  | ⟨0, _⟩ => show win3_2.index t (0 : Fin 2) * 2000 + 1 * (j 0).val = win3_5.index t (0 : Fin 2) * 2000 + 1 * (j 0).val; omega
  | ⟨1, _⟩ => show win3_2.index t (1 : Fin 2) * 1 + 1 * 0 = 0; omega

/-- Entry (0, c) of the bias window's one block, at every point, is the bias of column c. -/
theorem read_bias (c : Dev nD) (t : Fin cfg3.N) (j : S2000x128.Idx) :
    iblk3 V c 3 t (ix2 0 (j 1)) = V c main_v57 (ix2 0 ((((cfg3.win 5).blk t).view.emb j) 1)) := by
  obtain ⟨-, -, -, -, -, -, e30, e31, -, -, -, e51⟩ := index_facts t
  show V c main_v57 (((cfg3.win 3).blk t).view.emb (ix2 0 (j 1))) = _
  refine congrArg (V c main_v57) (funext fun a => Fin.ext ?_)
  match a with
  | ⟨0, _⟩ => show win3_3.index t (0 : Fin 2) * 1 + 1 * 0 = 0; omega
  | ⟨1, _⟩ => show win3_3.index t (1 : Fin 2) * 128 + 1 * (j 1).val = win3_5.index t (1 : Fin 2) * 128 + 1 * (j 1).val; omega

/-- Entry (r, c) of point t's block of the layer's input is entry (2000·t + r, c) of the array. -/
theorem read_input (c : Dev nD) (t : Fin cfg3.N) (j : S2000x128.Idx) :
    iblk3 V c 4 t j = V c main_v43 (((cfg3.win 5).blk t).view.emb j) := by
  obtain ⟨-, -, -, -, -, -, -, -, e40, e41, -, -⟩ := index_facts t
  show V c main_v43 (((cfg3.win 4).blk t).view.emb j) = _
  refine congrArg (V c main_v43) (funext fun a => Fin.ext ?_)
  match a with
  | ⟨0, _⟩ => show win3_4.index t (0 : Fin 2) * 2000 + 1 * (j 0).val = win3_5.index t (0 : Fin 2) * 2000 + 1 * (j 0).val; omega
  | ⟨1, _⟩ => show win3_4.index t (1 : Fin 2) * 128 + 1 * (j 1).val = win3_5.index t (1 : Fin 2) * 128 + 1 * (j 1).val; omega

/-- What point t writes back is the body's stored value of the five input blocks at t. -/
theorem flushed_stored (c : Dev nD) (t : Fin cfg3.N) :
    (dat3 (F := Ideal) V c).flushed 5 t
      = k3_pay1 (iblk3 V c 0 t) (iblk3 V c 1 t) (iblk3 V c 2 t) (iblk3 V c 3 t) (iblk3 V c 4 t) := by
  show (cfg3.win 5).cut (grid3.coords t) ((dat3 V c).after 5 t) = _
  rw [after3_5]
  unfold out3_5
  rw [View.canon_unit_zero zeros]
  simp only [View.ld_unit_zero (S := S2000x128) zeros, View.ld_unit_zero (S := S2000x1) zeros, View.ld_unit_zero (S := S1x128) zeros]
  rfl

/-- What point t writes back is block t of the entrywise step of the five arrays as the region found them: entry (r, c)
    of the block reads row 2000·t + r of the row-blocked arrays and column c of the bias. -/
theorem written_back (c : Dev nD) (t : Fin cfg3.N) :
    (dat3 (F := Ideal) V c).flushed 5 t = ((cfg3.win 5).blk t).view.read (Elt Ideal)
      (Cert.Layer.combine (V c main_v56) (V c main_v44) (V c main_v28) (fun j => V c main_v57 (ix2 0 (j 0))) (V c main_v43)) := by
  refine (flushed_stored V c t).trans (funext fun j => ?_)
  refine (step_apply (iblk3 V c 0 t) (iblk3 V c 1 t) (iblk3 V c 2 t) (iblk3 V c 3 t) (iblk3 V c 4 t) j).trans ?_
  exact combine_at (V c main_v56) (V c main_v44) (V c main_v28) (V c main_v57) (V c main_v43)
    (((cfg3.win 5).blk t).view.emb j) _ _ _ _ _
    (read_aggregate V c t j) (read_projected V c t j) (read_weight V c t j) (read_bias V c t j) (read_input V c t j)

/-- An index of the output array is in point t's block iff each coordinate is in the block's range on its axis. -/
theorem in_block (t : Fin cfg3.N) (i : S50000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole (Pipeline.arrRef spec3 5)).slice (win3_5.rect t)).set ↔ _
  rw [View.set_slice_whole, Rect.mem_set_unit]
  exact Iff.rfl

/-- The 25 blocks tile the array: row r lies in the block of point r / 2000. -/
theorem tiled (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_5 _, ?_⟩
  rw [in_block]
  obtain ⟨-, -, -, -, -, -, -, -, -, -, e50, e51⟩ := index_facts ⟨(i 0).val / 2000, by rw [hN]; omega⟩
  intro a
  match a with
  | ⟨0, _⟩ => show win3_5.index _ (0 : Fin 2) * 2000 ≤ (i 0).val ∧ (i 0).val < win3_5.index _ (0 : Fin 2) * 2000 + 2000; rw [e50]; dsimp only; omega
  | ⟨1, _⟩ => show win3_5.index _ (1 : Fin 2) * 128 ≤ (i 1).val ∧ (i 1).val < win3_5.index _ (1 : Fin 2) * 128 + 128; rw [e51]; omega

/-- After the region its output array holds the entrywise step of the five input arrays as the region found them. -/
theorem final (c : Dev nD) :
    (dat3 (F := Ideal) V c).arrAt 5 cfg3.N
      = Cert.Layer.combine (V c main_v56) (V c main_v44) (V c main_v28) (fun j => V c main_v57 (ix2 0 (j 0))) (V c main_v43) :=
  (dat3 (F := Ideal) V c).arrAt_eq_of_cover 5 _ (fun t _ => written_back V c t) tiled

end Cert.KernelIdeal.Combine3

end
-- ==== Proof.Combine5.lean ====
/-
  A region of the kernel program that computes the entrywise step of a layer, block by block.

  The grid has 25 points. Point t is handed rows 2000·t … 2000·t + 1999 of four arrays — the aggregate, the projected
  rows, the self weights (one column) and the layer's input — and the whole one-row bias array. Entry (r, c) of the block
  it writes is the aggregate plus the projected entry times the row's self weight, plus the bias of column c, clamped
  below at zero, plus the layer's input: it depends on row 2000·t + r of the four row-blocked arrays (entry (r, c) of
  each, entry (r, 0) of the self weights) and on entry (0, c) of the bias. The block goes back to the same rows of the
  output array, and the 25 blocks tile its 50000 rows, so the output array ends as `Layer.combine` of the five arrays as
  the region found them.
-/
import proofs.«116004_j4913442587254_1_alg».proof.Proof.Gen.KernelIdeal.Frame
import proofs.«116004_j4913442587254_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Combine5

open Cert.KernelIdeal Cert.KernelIdeal.Gen
open Idealize.ShloMosaic Idealize.ShloMosaic.TcCoe Idealize.SL.Sem Idealize.ShloMosaic.ValueIdx

/-! ## One block's stored value, entry by entry -/

/-- The zero offsets of a whole-buffer access, as the constant function. -/
theorem zeros : (![0, 0] : Fin 2 → Nat) = fun _ => 0 := funext fun a => by fin_cases a <;> rfl

/-- The body's stored value at an entry (r, c) of the block: the aggregate plus the projected row times the row's
    self weight (column 0 of the weight block), plus the bias at column c (row 0 of the bias block), clamped below at
    zero, plus the layer's input. -/
theorem step_apply (x0 x1 : Vec Ideal S2000x128 .f32) (x2 : Vec Ideal S2000x1 .f32) (x3 : Vec Ideal S1x128 .f32)
    (x4 : Vec Ideal S2000x128 .f32) (j : S2000x128.Idx) :
    k5_pay1 x0 x1 x2 x3 x4 j = max ((x0 j + x1 j * x2 (ix2 (j 0) 0)) + x3 (ix2 0 (j 1))) 0 + x4 j := by
  have e2 : broadcastTo S2000x128 x2 broadcasts_S2000x1_S2000x128 j = x2 (ix2 (j 0) 0) :=
    broadcastTo_apply x2 broadcasts_S2000x1_S2000x128 j (ix2 (j 0) 0) fun a => by
      match a with
      | ⟨0, _⟩ => rfl
      | ⟨1, _⟩ => rfl
  have e3 : broadcastTo S2000x128 x3 broadcasts_S1x128_S2000x128 j = x3 (ix2 0 (j 1)) :=
    broadcastTo_apply x3 broadcasts_S1x128_S2000x128 j (ix2 0 (j 1)) fun a => by
      match a with
      | ⟨0, _⟩ => rfl
      | ⟨1, _⟩ => rfl
  unfold k5_pay1
  simp only [shapeCast_self]
  show max ((x0 j + x1 j * broadcastTo S2000x128 x2 broadcasts_S2000x1_S2000x128 j)
      + broadcastTo S2000x128 x3 broadcasts_S1x128_S2000x128 j) (Ideal.ofBits .f32 0x00000000#32) + x4 j = _
  rw [e2, e3, Ideal.ofBits_zero_f32]

/-- The entrywise step at an array entry (r, c), from the five values it combines: the aggregate, the projected row and
    the layer's input at (r, c), the self weight of row r, and the bias of column c. -/
theorem combine_at (a0 a1 : FVec Ideal S50000x128 .f32) (a2 : FVec Ideal S50000x1 .f32) (a3 : FVec Ideal S1x128 .f32)
    (a4 : FVec Ideal S50000x128 .f32) (i : S50000x128.Idx) (y0 y1 y2 y3 y4 : EReal)
    (h0 : y0 = a0 i) (h1 : y1 = a1 i) (h2 : y2 = a2 (ix2 (i 0) 0)) (h3 : y3 = a3 (ix2 0 (i 1))) (h4 : y4 = a4 i) :
    max ((y0 + y1 * y2) + y3) 0 + y4 = Cert.Layer.combine a0 a1 a2 (fun j => a3 (ix2 0 (j 0))) a4 i := by
  subst h0 h1 h2 h3 h4; rfl

/-! ## From the blocks to the array -/

variable (V : (c : Dev nD) → (b : Ref sig .tc) → Buf (Elt Ideal) ((c : Thread nD τ).loc b))

/-- The printed index maps over the 25 points: point t's block of every row-blocked window is block t along the rows
    and block 0 along the columns; the bias window's one block is block (0, 0) at every point. -/
theorem index_facts : ∀ t : Fin cfg5.N,
    win5_0.index t (0 : Fin 2) = win5_5.index t (0 : Fin 2) ∧ win5_0.index t (1 : Fin 2) = win5_5.index t (1 : Fin 2)
    ∧ win5_1.index t (0 : Fin 2) = win5_5.index t (0 : Fin 2) ∧ win5_1.index t (1 : Fin 2) = win5_5.index t (1 : Fin 2)
    ∧ win5_2.index t (0 : Fin 2) = win5_5.index t (0 : Fin 2) ∧ win5_2.index t (1 : Fin 2) = 0
    ∧ win5_3.index t (0 : Fin 2) = 0 ∧ win5_3.index t (1 : Fin 2) = 0
    ∧ win5_4.index t (0 : Fin 2) = win5_5.index t (0 : Fin 2) ∧ win5_4.index t (1 : Fin 2) = win5_5.index t (1 : Fin 2)
    ∧ win5_5.index t (0 : Fin 2) = t.val ∧ win5_5.index t (1 : Fin 2) = 0 :=
  (by decide +kernel : ∀ t : Fin grid5.N, _)

/-- Entry (r, c) of point t's block of the aggregate is entry (2000·t + r, c) of the array: where the output block's
    entry (r, c) sits in the output array. -/
theorem read_aggregate (c : Dev nD) (t : Fin cfg5.N) (j : S2000x128.Idx) :
    iblk5 V c 0 t j = V c main_v71 (((cfg5.win 5).blk t).view.emb j) := by
  obtain ⟨e00, e01, -, -, -, -, -, -, -, -, -, -⟩ := index_facts t
  show V c main_v71 (((cfg5.win 0).blk t).view.emb j) = _
  refine congrArg (V c main_v71) (funext fun a => Fin.ext ?_)
  match a with
  | ⟨0, _⟩ => show win5_0.index t (0 : Fin 2) * 2000 + 1 * (j 0).val = win5_5.index t (0 : Fin 2) * 2000 + 1 * (j 0).val; omega
  | ⟨1, _⟩ => show win5_0.index t (1 : Fin 2) * 128 + 1 * (j 1).val = win5_5.index t (1 : Fin 2) * 128 + 1 * (j 1).val; omega

/-- The same for the projected rows. -/
theorem read_projected (c : Dev nD) (t : Fin cfg5.N) (j : S2000x128.Idx) :
    iblk5 V c 1 t j = V c main_v59 (((cfg5.win 5).blk t).view.emb j) := by
  obtain ⟨-, -, e10, e11, -, -, -, -, -, -, -, -⟩ := index_facts t
  show V c main_v59 (((cfg5.win 1).blk t).view.emb j) = _
  refine congrArg (V c main_v59) (funext fun a => Fin.ext ?_)
  match a with
  | ⟨0, _⟩ => show win5_1.index t (0 : Fin 2) * 2000 + 1 * (j 0).val = win5_5.index t (0 : Fin 2) * 2000 + 1 * (j 0).val; omega
  | ⟨1, _⟩ => show win5_1.index t (1 : Fin 2) * 128 + 1 * (j 1).val = win5_5.index t (1 : Fin 2) * 128 + 1 * (j 1).val; omega

/-- Entry (r, 0) of point t's block of the self weights is the weight of row 2000·t + r. -/
theorem read_weight (c : Dev nD) (t : Fin cfg5.N) (j : S2000x128.Idx) :
    iblk5 V c 2 t (ix2 (j 0) 0) = V c main_v28 (ix2 ((((cfg5.win 5).blk t).view.emb j) 0) 0) := by
  obtain ⟨-, -, -, -, e20, e21, -, -, -, -, -, -⟩ := index_facts t
  show V c main_v28 (((cfg5.win 2).blk t).view.emb (ix2 (j 0) 0)) = _
  refine congrArg (V c main_v28) (funext fun a => Fin.ext ?_)
  match a with
  | ⟨0, _⟩ => show win5_2.index t (0 : Fin 2) * 2000 + 1 * (j 0).val = win5_5.index t (0 : Fin 2) * 2000 + 1 * (j 0).val; omega
  | ⟨1, _⟩ => show win5_2.index t (1 : Fin 2) * 1 + 1 * 0 = 0; omega

/-- Entry (0, c) of the bias window's one block, at every point, is the bias of column c. -/
theorem read_bias (c : Dev nD) (t : Fin cfg5.N) (j : S2000x128.Idx) :
    iblk5 V c 3 t (ix2 0 (j 1)) = V c main_v72 (ix2 0 ((((cfg5.win 5).blk t).view.emb j) 1)) := by
  obtain ⟨-, -, -, -, -, -, e30, e31, -, -, -, e51⟩ := index_facts t
  show V c main_v72 (((cfg5.win 3).blk t).view.emb (ix2 0 (j 1))) = _
  refine congrArg (V c main_v72) (funext fun a => Fin.ext ?_)
  match a with
  | ⟨0, _⟩ => show win5_3.index t (0 : Fin 2) * 1 + 1 * 0 = 0; omega
  | ⟨1, _⟩ => show win5_3.index t (1 : Fin 2) * 128 + 1 * (j 1).val = win5_5.index t (1 : Fin 2) * 128 + 1 * (j 1).val; omega

/-- Entry (r, c) of point t's block of the layer's input is entry (2000·t + r, c) of the array. -/
theorem read_input (c : Dev nD) (t : Fin cfg5.N) (j : S2000x128.Idx) :
    iblk5 V c 4 t j = V c main_v58 (((cfg5.win 5).blk t).view.emb j) := by
  obtain ⟨-, -, -, -, -, -, -, -, e40, e41, -, -⟩ := index_facts t
  show V c main_v58 (((cfg5.win 4).blk t).view.emb j) = _
  refine congrArg (V c main_v58) (funext fun a => Fin.ext ?_)
  match a with
  | ⟨0, _⟩ => show win5_4.index t (0 : Fin 2) * 2000 + 1 * (j 0).val = win5_5.index t (0 : Fin 2) * 2000 + 1 * (j 0).val; omega
  | ⟨1, _⟩ => show win5_4.index t (1 : Fin 2) * 128 + 1 * (j 1).val = win5_5.index t (1 : Fin 2) * 128 + 1 * (j 1).val; omega

/-- What point t writes back is the body's stored value of the five input blocks at t. -/
theorem flushed_stored (c : Dev nD) (t : Fin cfg5.N) :
    (dat5 (F := Ideal) V c).flushed 5 t
      = k5_pay1 (iblk5 V c 0 t) (iblk5 V c 1 t) (iblk5 V c 2 t) (iblk5 V c 3 t) (iblk5 V c 4 t) := by
  show (cfg5.win 5).cut (grid5.coords t) ((dat5 V c).after 5 t) = _
  rw [after5_5]
  unfold out5_5
  rw [View.canon_unit_zero zeros]
  simp only [View.ld_unit_zero (S := S2000x128) zeros, View.ld_unit_zero (S := S2000x1) zeros, View.ld_unit_zero (S := S1x128) zeros]
  rfl

/-- What point t writes back is block t of the entrywise step of the five arrays as the region found them: entry (r, c)
    of the block reads row 2000·t + r of the row-blocked arrays and column c of the bias. -/
theorem written_back (c : Dev nD) (t : Fin cfg5.N) :
    (dat5 (F := Ideal) V c).flushed 5 t = ((cfg5.win 5).blk t).view.read (Elt Ideal)
      (Cert.Layer.combine (V c main_v71) (V c main_v59) (V c main_v28) (fun j => V c main_v72 (ix2 0 (j 0))) (V c main_v58)) := by
  refine (flushed_stored V c t).trans (funext fun j => ?_)
  refine (step_apply (iblk5 V c 0 t) (iblk5 V c 1 t) (iblk5 V c 2 t) (iblk5 V c 3 t) (iblk5 V c 4 t) j).trans ?_
  exact combine_at (V c main_v71) (V c main_v59) (V c main_v28) (V c main_v72) (V c main_v58)
    (((cfg5.win 5).blk t).view.emb j) _ _ _ _ _
    (read_aggregate V c t j) (read_projected V c t j) (read_weight V c t j) (read_bias V c t j) (read_input V c t j)

/-- An index of the output array is in point t's block iff each coordinate is in the block's range on its axis. -/
theorem in_block (t : Fin cfg5.N) (i : S50000x128.Idx) :
    i ∈ ((cfg5.win 5).blk t).view.set ↔ ∀ a : Fin 2, win5_5.index t a * S2000x128.size a ≤ (i a).val ∧ (i a).val < win5_5.index t a * S2000x128.size a + S2000x128.size a := by
  show i ∈ ((View.whole (Pipeline.arrRef spec5 5)).slice (win5_5.rect t)).set ↔ _
  rw [View.set_slice_whole, Rect.mem_set_unit]
  exact Iff.rfl

/-- The 25 blocks tile the array: row r lies in the block of point r / 2000. -/
theorem tiled (i : S50000x128.Idx) :
    ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 25 := N_5
  refine ⟨⟨(i 0).val / 2000, by rw [hN]; omega⟩, flush5_5 _, ?_⟩
  rw [in_block]
  obtain ⟨-, -, -, -, -, -, -, -, -, -, e50, e51⟩ := index_facts ⟨(i 0).val / 2000, by rw [hN]; omega⟩
  intro a
  match a with
  | ⟨0, _⟩ => show win5_5.index _ (0 : Fin 2) * 2000 ≤ (i 0).val ∧ (i 0).val < win5_5.index _ (0 : Fin 2) * 2000 + 2000; rw [e50]; dsimp only; omega
  | ⟨1, _⟩ => show win5_5.index _ (1 : Fin 2) * 128 ≤ (i 1).val ∧ (i 1).val < win5_5.index _ (1 : Fin 2) * 128 + 128; rw [e51]; omega

/-- After the region its output array holds the entrywise step of the five input arrays as the region found them. -/
theorem final (c : Dev nD) :
    (dat5 (F := Ideal) V c).arrAt 5 cfg5.N
      = Cert.Layer.combine (V c main_v71) (V c main_v59) (V c main_v28) (fun j => V c main_v72 (ix2 0 (j 0))) (V c main_v58) :=
  (dat5 (F := Ideal) V c).arrAt_eq_of_cover 5 _ (fun t _ => written_back V c t) tiled

end Cert.KernelIdeal.Combine5

end
-- ==== Proof.Readout6.lean ====
/-
  Region 6 of the kernel program: the last projection, to 64 columns, with its bias, computed block by block.

  The grid has 25 points. Point t is handed rows 2000·t … 2000·t + 1999 of the feature array, the whole 128 × 64 weight
  matrix and the whole bias, a 1 × 64 array. It multiplies the rows by the matrix into a zero accumulator (the change of
  float format on the way in is the identity over the extended reals), adds the bias row repeated down the 2000 rows, and
  writes the 2000 × 64 result back to the same rows of the output array. Entry (r, c) of a block's result is the sum over
  k of x[2000·t + r, k] · w[k, c], plus b[0, c]. The 25 blocks tile the 50000 rows, so the output array ends as
  `Layer.readout` of the three arrays as the region found them, the bias read as the one row of its array.
-/
import proofs.«116004_j4913442587254_1_alg».proof.Proof.Gen.KernelIdeal.Frame
import proofs.«116004_j4913442587254_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.KernelIdeal.Readout6

open Cert.KernelIdeal Cert.KernelIdeal.Gen
open Idealize.ShloMosaic Idealize.ShloMosaic.TcCoe Idealize.SL.Sem Idealize.ShloMosaic.ValueIdx

/-! ## One block's result, entry by entry -/

theorem lhs_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_inner (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q
theorem rhs_inner (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q
theorem rhs_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The bias row repeated down the rows: entry (r, c) is b[0, c]. -/
theorem bias_apply (b : Vec Ideal S1x64 .f32) (j : S2000x64.Idx) :
    broadcastTo S2000x64 b broadcasts_S1x64_S2000x64 j = b (ix2 0 (j 1)) :=
  broadcastTo_apply b broadcasts_S1x64_S2000x64 j (ix2 0 (j 1)) (fun a => by
    match a with
    | ⟨0, _⟩ => show 0 = if (1 : Nat) = 1 then 0 else (j 0).val; rw [if_pos rfl]
    | ⟨1, _⟩ => show (j 1).val = if (64 : Nat) = 1 then 0 else (j 1).val; rw [if_neg (by decide)])

/-- Entry (r, c) of a block's result is the sum over k of x[r, k] · w[k, c], plus b[0, c]. -/
theorem result_apply (x : Vec Ideal S2000x128 .f32) (w : Vec Ideal S128x64 .f32) (b : Vec Ideal S1x64 .f32) (j : S2000x64.Idx) :
    k6_pay1 (F := Ideal) x w b j = (∑ k : Fin 128, x (ix2 (j 0) k) * w (ix2 k (j 1))) + b (ix2 0 (j 1)) := by
  unfold k6_pay1
  simp only [matmul, shapeCast_self]
  rw [addf_apply, bias_apply]
  refine congrArg (· + b (ix2 0 (j 1))) ?_
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx j ((contrEquiv1 dot_S2000x128_S128x64_S2000x64_1_0_0_1_n_n 128 rfl rfl).symm k) = ix2 (j 0) k := funext fun a => Fin.ext (by
    match a with
    | ⟨0, _⟩ => exact lhs_row _ _
    | ⟨1, _⟩ => exact (lhs_inner _ _).trans hk)
  have er : dot_S2000x128_S128x64_S2000x64_1_0_0_1_n_n.rhsIdx j ((contrEquiv1 dot_S2000x128_S128x64_S2000x64_1_0_0_1_n_n 128 rfl rfl).symm k) = ix2 k (j 1) := funext fun a => Fin.ext (by
    match a with
    | ⟨0, _⟩ => exact (rhs_inner _ _).trans hk
    | ⟨1, _⟩ => exact rhs_col _ _)
  rw [el, er]
  rfl

/-! ## From the blocks to the array -/

variable (V : (c : Dev nD) → (b : Ref sig .tc) → Buf (Elt Ideal) ((c : Thread nD τ).loc b))

theorem origin : (![0, 0] : Fin 2 → Nat) = fun _ => 0 := funext fun a => by fin_cases a <;> rfl

/-- Where the windows sit at a point: the feature block and the output block at row-block t, column-block 0; the weights
    and the bias whole. -/
theorem where_blocks : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the readout of the arrays as the region found them. -/
theorem written_back (c : Dev nD) (t : Fin cfg6.N) :
    (dat6 (F := Ideal) V c).flushed 3 t
      = ((cfg6.win 3).blk t).view.read (Elt Ideal) (Cert.Layer.readout (V c main_v73) (V c main_arg8) (fun j => V c main_v74 (ix2 0 (j 0)))) := by
  show (cfg6.win 3).cut (grid6.coords t) ((dat6 V c).after 3 t) = _
  rw [after6_3]
  unfold out6_3
  rw [View.canon_unit_zero origin]
  simp only [View.ld_unit_zero (S := S2000x128) origin, View.ld_unit_zero (S := S128x64) origin, View.ld_unit_zero (S := S1x64) origin]
  obtain ⟨e0, e1, e2, e3, e4, e5, e6, e7⟩ := where_blocks t
  funext j
  show k6_pay1 (F := Ideal) (iblk6 V c 0 t) (iblk6 V c 1 t) (iblk6 V c 2 t) j = Cert.Layer.readout (V c main_v73) (V c main_arg8) (fun j => V c main_v74 (ix2 0 (j 0))) (((cfg6.win 3).blk t).view.emb j)
  refine (result_apply (iblk6 V c 0 t) (iblk6 V c 1 t) (iblk6 V c 2 t) j).trans ?_
  unfold Cert.Layer.readout
  refine congr (congrArg HAdd.hAdd (Finset.sum_congr rfl fun k _ => ?_)) ?_
  · have hx : iblk6 V c 0 t (ix2 (j 0) k) = V c main_v73 (ix2 ((((cfg6.win 3).blk t).view.emb j) 0) k) := by
      show V c main_v73 (((cfg6.win 0).blk t).view.emb (ix2 (j 0) k)) = _
      refine congrArg (V c main_v73) (funext fun a => Fin.ext ?_)
      match a with
      | ⟨0, _⟩ => show win6_0.index t (0 : Fin 2) * 2000 + 1 * (j 0).val = win6_3.index t (0 : Fin 2) * 2000 + 1 * (j 0).val; omega
      | ⟨1, _⟩ => show win6_0.index t (1 : Fin 2) * 128 + 1 * k.val = k.val; omega
    have hw : iblk6 V c 1 t (ix2 k (j 1)) = V c main_arg8 (ix2 k ((((cfg6.win 3).blk t).view.emb j) 1)) := by
      show V c main_arg8 (((cfg6.win 1).blk t).view.emb (ix2 k (j 1))) = _
      refine congrArg (V c main_arg8) (funext fun a => Fin.ext ?_)
      match a with
      | ⟨0, _⟩ => show win6_1.index t (0 : Fin 2) * 128 + 1 * k.val = k.val; omega
      | ⟨1, _⟩ => show win6_1.index t (1 : Fin 2) * 64 + 1 * (j 1).val = win6_3.index t (1 : Fin 2) * 64 + 1 * (j 1).val; omega
    rw [hx, hw]
  · show V c main_v74 (((cfg6.win 2).blk t).view.emb (ix2 0 (j 1))) = V c main_v74 (ix2 0 ((((cfg6.win 3).blk t).view.emb j) 1))
    refine congrArg (V c main_v74) (funext fun a => Fin.ext ?_)
    match a with
    | ⟨0, _⟩ => show win6_2.index t (0 : Fin 2) * 1 + 1 * 0 = 0; omega
    | ⟨1, _⟩ => show win6_2.index t (1 : Fin 2) * 64 + 1 * (j 1).val = win6_3.index t (1 : Fin 2) * 64 + 1 * (j 1).val; omega

/-- An index of the output array is in point t's block iff each coordinate is in the block's range on its axis. -/
theorem in_block (t : Fin cfg6.N) (i : S50000x64.Idx) :
    i ∈ ((cfg6.win 3).blk t).view.set ↔ ∀ a : Fin 2, win6_3.index t a * S2000x64.size a ≤ (i a).val ∧ (i a).val < win6_3.index t a * S2000x64.size a + S2000x64.size a := by
  show i ∈ ((View.whole (Pipeline.arrRef spec6 3)).slice (win6_3.rect t)).set ↔ _
  rw [View.set_slice_whole, Rect.mem_set_unit]
  exact Iff.rfl

/-- The 25 blocks tile the array: row r lies in the block of point r / 2000. -/
theorem tiled (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : cfg6.N = 25 := N_6
  refine ⟨⟨(i 0).val / 2000, by rw [hN]; omega⟩, flush6_3 _, ?_⟩
  rw [in_block]
  obtain ⟨-, -, -, -, -, -, e6, e7⟩ := where_blocks ⟨(i 0).val / 2000, by rw [hN]; omega⟩
  intro a
  match a with
  | ⟨0, _⟩ => show win6_3.index _ (0 : Fin 2) * 2000 ≤ (i 0).val ∧ (i 0).val < win6_3.index _ (0 : Fin 2) * 2000 + 2000; rw [e6]; dsimp only; omega
  | ⟨1, _⟩ => show win6_3.index _ (1 : Fin 2) * 64 ≤ (i 1).val ∧ (i 1).val < win6_3.index _ (1 : Fin 2) * 64 + 64; rw [e7]; omega

/-- After the region its output array holds the readout of the feature array through the weights with the bias, all as
    the region found them. -/
theorem final (c : Dev nD) :
    (dat6 (F := Ideal) V c).arrAt 3 cfg6.N
      = Cert.Layer.readout (V c main_v73) (V c main_arg8) (fun j => V c main_v74 (ix2 0 (j 0))) :=
  (dat6 (F := Ideal) V c).arrAt_eq_of_cover 3 _ (fun t _ => written_back V c t) (tiled)

end Cert.KernelIdeal.Readout6

end
-- ==== Proof.RefStages.lean ====
/-
  The reference's layers, stage by stage, as the shared specification's functions.

  A layer of the reference is a run of whole-array host operations. Its projection is one dot_general over the feature
  axis: entry (r, c) is the sum over k of h[r, k] · W[k, c], which is `project`. Its entrywise step is nine operations:
  the self-loop weight s (one column) is broadcast along the columns, so its entry (r, c) is s[r, 0]; the projected array
  is multiplied by it entry by entry; the aggregate is added on the left; the bias (one row) is broadcast first to a
  one-row array and then along the rows, so its entry (r, c) is b[c], and it is added on the right; the result is
  compared with an array whose every entry is the word 0x00000000, the extended real 0, and the larger is kept; the
  layer's input is added on the right. Read at an index (r, c), with the additions, the product and the maximum being
  those of the extended reals, this is max ((agg[r, c] + p[r, c] · s[r, 0]) + b[c], 0) + h[r, c], in exactly this grouping
  and order of operands, which is `combine`. The last stage is a dot_general to 64 columns followed by the addition of
  a bias broadcast the same way, which is `readout`. The aggregate, the self-loop weight and every earlier layer's
  result enter only as arrays: nothing about how they are computed is used.
-/
import proofs.«116004_j4913442587254_1_alg».proof.Proof.Gen.ReferenceIdeal.Read
import proofs.«116004_j4913442587254_1_alg».proof.Proof.Layer
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Read
open Idealize.ShloMosaic Idealize.ShloMosaic.TcCoe Idealize.SL.Sem Idealize.ShloMosaic.ValueIdx

/-! ## Indices: the index functions of the layout operations and of the contractions, by coordinates -/

/-- A projection's left operand is read at row `i 0`, column `k`. -/
theorem lidx_v29 (i : S50000x128.Idx) (k : Fin 128) : lidx_main_v29 i k = ix2 (i 0) k :=
  funext fun a => Fin.ext (by match a with | ⟨0, _⟩ => rfl | ⟨1, _⟩ => rfl)
/-- A projection's right operand is read at row `k`, column `i 1`. -/
theorem ridx_v29 (i : S50000x128.Idx) (k : Fin 128) : ridx_main_v29 i k = ix2 k (i 1) :=
  funext fun a => Fin.ext (by match a with | ⟨0, _⟩ => rfl | ⟨1, _⟩ => rfl)
theorem lidx_v50 (i : S50000x128.Idx) (k : Fin 128) : lidx_main_v50 i k = ix2 (i 0) k :=
  funext fun a => Fin.ext (by match a with | ⟨0, _⟩ => rfl | ⟨1, _⟩ => rfl)
theorem ridx_v50 (i : S50000x128.Idx) (k : Fin 128) : ridx_main_v50 i k = ix2 k (i 1) :=
  funext fun a => Fin.ext (by match a with | ⟨0, _⟩ => rfl | ⟨1, _⟩ => rfl)
theorem lidx_v71 (i : S50000x128.Idx) (k : Fin 128) : lidx_main_v71 i k = ix2 (i 0) k :=
  funext fun a => Fin.ext (by match a with | ⟨0, _⟩ => rfl | ⟨1, _⟩ => rfl)
theorem ridx_v71 (i : S50000x128.Idx) (k : Fin 128) : ridx_main_v71 i k = ix2 k (i 1) :=
  funext fun a => Fin.ext (by match a with | ⟨0, _⟩ => rfl | ⟨1, _⟩ => rfl)
theorem lidx_v92 (i : S50000x64.Idx) (k : Fin 128) : lidx_main_v92 i k = ix2 (i 0) k :=
  funext fun a => Fin.ext (by match a with | ⟨0, _⟩ => rfl | ⟨1, _⟩ => rfl)
theorem ridx_v92 (i : S50000x64.Idx) (k : Fin 128) : ridx_main_v92 i k = ix2 k (i 1) :=
  funext fun a => Fin.ext (by match a with | ⟨0, _⟩ => rfl | ⟨1, _⟩ => rfl)

/-- The self-loop weight broadcast along the columns is read at row `i 0`, column 0. -/
theorem idx_v42 (i : S50000x128.Idx) : idx_main_v42 i = ix2 (i 0) 0 :=
  funext fun a => Fin.ext (by match a with | ⟨0, _⟩ => rfl | ⟨1, _⟩ => rfl)
theorem idx_v63 (i : S50000x128.Idx) : idx_main_v63 i = ix2 (i 0) 0 :=
  funext fun a => Fin.ext (by match a with | ⟨0, _⟩ => rfl | ⟨1, _⟩ => rfl)
theorem idx_v84 (i : S50000x128.Idx) : idx_main_v84 i = ix2 (i 0) 0 :=
  funext fun a => Fin.ext (by match a with | ⟨0, _⟩ => rfl | ⟨1, _⟩ => rfl)

/-- The bias broadcast to one row and then along the rows is read at column `i 1`. -/
theorem idx_v45_v46 (i : S50000x128.Idx) : idx_main_v45 (idx_main_v46 i) = ix1 (i 1) :=
  funext fun a => Fin.ext (by match a with | ⟨0, _⟩ => rfl)
theorem idx_v66_v67 (i : S50000x128.Idx) : idx_main_v66 (idx_main_v67 i) = ix1 (i 1) :=
  funext fun a => Fin.ext (by match a with | ⟨0, _⟩ => rfl)
theorem idx_v87_v88 (i : S50000x128.Idx) : idx_main_v87 (idx_main_v88 i) = ix1 (i 1) :=
  funext fun a => Fin.ext (by match a with | ⟨0, _⟩ => rfl)
theorem idx_v93_v94 (i : S50000x64.Idx) : idx_main_v93 (idx_main_v94 i) = ix1 (i 1) :=
  funext fun a => Fin.ext (by match a with | ⟨0, _⟩ => rfl)

/-! ## The first layer -/

/-- The first projection: the input's rows through the first weight matrix. -/
theorem v29 (x0 : (⟨S50000x128, .f32⟩ : BufTy).Contents (Elt Ideal)) (x2 : (⟨S128x128, .f32⟩ : BufTy).Contents (Elt Ideal)) :
    val_main_v29 (F := Ideal) x0 x2 = Cert.Layer.project x0 x2 := by
  funext i
  unfold Cert.Layer.project
  rw [val_main_v29_apply]
  refine Finset.sum_congr rfl fun k _ => ?_
  rw [lidx_v29, ridx_v29]
  rfl

/-- The first layer's entrywise step: max ((agg + p · s) + b, 0) + the input. -/
theorem v49 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    val_main_v49 (F := Ideal) x0 x1 x2 x3 = Cert.Layer.combine (val_main_v41 (F := Ideal) x0 x1 x2) (val_main_v29 (F := Ideal) x0 x2) (val_main_v28 (F := Ideal) x1) x3 x0 := by
  funext i
  unfold Cert.Layer.combine
  rw [val_main_v49_apply, val_main_v48_apply, val_main_v47_apply, val_main_v44_apply, val_main_v43_apply,
    val_main_v42_apply, val_main_v46_apply, val_main_v45_apply, val_main_call0_v0_apply, val_main_call0_cst_apply,
    idx_v42, idx_v45_v46]
  simp only [Ideal.addf_def, Ideal.mulf_def, Ideal.maximumf_def, Ideal.ofBits_def, Ideal.ofBits_zero_f32]
  rfl

/-! ## The second layer -/

/-- The second projection: the first layer's result through the second weight matrix. -/
theorem v50 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v50 (F := Ideal) x0 x1 x2 x3 x4 = Cert.Layer.project (val_main_v49 (F := Ideal) x0 x1 x2 x3) x4 := by
  funext i
  unfold Cert.Layer.project
  rw [val_main_v50_apply]
  refine Finset.sum_congr rfl fun k _ => ?_
  rw [lidx_v50, ridx_v50]
  rfl

/-- The second layer's entrywise step; the array added back is the first layer's result. -/
theorem v70 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v70 (F := Ideal) x0 x1 x2 x3 x4 x5 = Cert.Layer.combine (val_main_v62 (F := Ideal) x0 x1 x2 x3 x4) (val_main_v50 (F := Ideal) x0 x1 x2 x3 x4) (val_main_v28 (F := Ideal) x1) x5 (val_main_v49 (F := Ideal) x0 x1 x2 x3) := by
  funext i
  unfold Cert.Layer.combine
  rw [val_main_v70_apply, val_main_v69_apply, val_main_v68_apply, val_main_v65_apply, val_main_v64_apply,
    val_main_v63_apply, val_main_v67_apply, val_main_v66_apply, val_main_call1_v0_apply, val_main_call1_cst_apply,
    idx_v63, idx_v66_v67]
  simp only [Ideal.addf_def, Ideal.mulf_def, Ideal.maximumf_def, Ideal.ofBits_def, Ideal.ofBits_zero_f32]
  rfl

/-! ## The third layer -/

/-- The third projection: the second layer's result through the third weight matrix. -/
theorem v71 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v71 (F := Ideal) x0 x1 x2 x3 x4 x5 x6 = Cert.Layer.project (val_main_v70 (F := Ideal) x0 x1 x2 x3 x4 x5) x6 := by
  funext i
  unfold Cert.Layer.project
  rw [val_main_v71_apply]
  refine Finset.sum_congr rfl fun k _ => ?_
  rw [lidx_v71, ridx_v71]
  rfl

/-- The third layer's entrywise step; the array added back is the second layer's result. -/
theorem v91 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v91 (F := Ideal) x0 x1 x2 x3 x4 x5 x6 x7 = Cert.Layer.combine (val_main_v83 (F := Ideal) x0 x1 x2 x3 x4 x5 x6) (val_main_v71 (F := Ideal) x0 x1 x2 x3 x4 x5 x6) (val_main_v28 (F := Ideal) x1) x7 (val_main_v70 (F := Ideal) x0 x1 x2 x3 x4 x5) := by
  funext i
  unfold Cert.Layer.combine
  rw [val_main_v91_apply, val_main_v90_apply, val_main_v89_apply, val_main_v86_apply, val_main_v85_apply,
    val_main_v84_apply, val_main_v88_apply, val_main_v87_apply, val_main_call2_v0_apply, val_main_call2_cst_apply,
    idx_v84, idx_v87_v88]
  simp only [Ideal.addf_def, Ideal.mulf_def, Ideal.maximumf_def, Ideal.ofBits_def, Ideal.ofBits_zero_f32]
  rfl

/-! ## The readout -/

/-- The last stage: the third layer's result through the 128 × 64 matrix, plus the bias of its column. -/
theorem v95 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x64, .f32⟩ : BufTy).Contents (Elt Ideal)) (x9 : (⟨S64, .f32⟩ : BufTy).Contents (Elt Ideal)) :
    val_main_v95 (F := Ideal) x0 x1 x2 x3 x4 x5 x6 x7 x8 x9 = Cert.Layer.readout (val_main_v91 (F := Ideal) x0 x1 x2 x3 x4 x5 x6 x7) x8 x9 := by
  funext i
  unfold Cert.Layer.readout
  rw [val_main_v95_apply, val_main_v92_apply, val_main_v94_apply, val_main_v93_apply, idx_v93_v94]
  simp only [Ideal.addf_def]
  refine congrArg (· + x9 (ix1 (i 1))) ?_
  refine Finset.sum_congr rfl fun k _ => ?_
  rw [lidx_v92, ridx_v92]
  rfl

end Cert.ReferenceIdeal.Stages

end
-- ==== Proof.Result.lean ====
/-
  The idealized kernel's result array is the reference's last stage.

  The generated frame names the buffers' contents at the thirteen boundaries of @main. Walking them in order, each buffer
  a later segment reads is identified with a stage of the reference (a function of the ten argument arrays):

    the per-edge arrays after the first stretch      — the reference's sources, destinations, edge and self-loop weights;
    a projection region's output                     — the reference's dot_general of the same two arrays;
    a stretch's aggregate                            — the reference's aggregation of that projection (the same host
                                                       operations, never opened);
    an entrywise region's output                     — the reference's layer output;
    the last region's output                         — the reference's result.

  At each step the region's value (its output array is `Layer.project` / `combine` / `readout` of the arrays it found) meets
  the reference's stage (the same function of the same stages); what a segment does not write it keeps. The three biases
  reach their regions as one-row arrays, which read back along the row as the bias itself.
-/
import proofs.«116004_j4913442587254_1_alg».proof.Proof.Boundaries
import proofs.«116004_j4913442587254_1_alg».proof.Proof.Project0
import proofs.«116004_j4913442587254_1_alg».proof.Proof.Project2
import proofs.«116004_j4913442587254_1_alg».proof.Proof.Project4
import proofs.«116004_j4913442587254_1_alg».proof.Proof.Combine1
import proofs.«116004_j4913442587254_1_alg».proof.Proof.Combine3
import proofs.«116004_j4913442587254_1_alg».proof.Proof.Combine5
import proofs.«116004_j4913442587254_1_alg».proof.Proof.Readout6
import proofs.«116004_j4913442587254_1_alg».proof.Proof.RefStages
import proofs.«116004_j4913442587254_1_alg».proof.Proof.RefAggregate
import Idealize.ShloMosaic.Lib.ValueLayout

set_option maxRecDepth 16384

noncomputable section

namespace Cert.KernelIdeal.Result

open Cert.KernelIdeal Cert.KernelIdeal.Gen Cert.KernelIdeal.Boundaries
open Idealize.ShloMosaic Idealize.ShloMosaic.TcCoe Idealize.SL.Sem Idealize.ShloMosaic.ValueIdx

/-! ## The arguments and the per-edge arrays at every boundary -/

/-- The ten argument arrays. -/
abbrev argRefs : List (Ref sig .tc) := [main_arg0, main_arg1, main_arg2, main_arg3, main_arg4, main_arg5, main_arg6, main_arg7, main_arg8, main_arg9]
/-- The arrays the first host stretch computes from the edge list: sources, destinations, edge weights, self-loop weights. -/
abbrev edgeRefs : List (Ref sig .tc) := [main_v1, main_v3, main_v26, main_v28]

theorem args_not_written0 : ∀ b ∈ argRefs, b ∉ written0 := by decide
theorem args_not_main_v29 : ∀ b ∈ argRefs, b ≠ main_v29 := by decide
theorem args_not_written1 : ∀ b ∈ argRefs, b ∉ written1 := by decide
theorem args_not_main_v43 : ∀ b ∈ argRefs, b ≠ main_v43 := by decide
theorem args_not_main_v44 : ∀ b ∈ argRefs, b ≠ main_v44 := by decide
theorem args_not_written3 : ∀ b ∈ argRefs, b ∉ written3 := by decide
theorem args_not_main_v58 : ∀ b ∈ argRefs, b ≠ main_v58 := by decide
theorem args_not_main_v59 : ∀ b ∈ argRefs, b ≠ main_v59 := by decide
theorem args_not_written5 : ∀ b ∈ argRefs, b ∉ written5 := by decide
theorem args_not_main_v73 : ∀ b ∈ argRefs, b ≠ main_v73 := by decide
theorem args_not_written6 : ∀ b ∈ argRefs, b ∉ written6 := by decide

theorem edges_not_main_v29 : ∀ b ∈ edgeRefs, b ≠ main_v29 := by decide
theorem edges_not_written1 : ∀ b ∈ edgeRefs, b ∉ written1 := by decide
theorem edges_not_main_v43 : ∀ b ∈ edgeRefs, b ≠ main_v43 := by decide
theorem edges_not_main_v44 : ∀ b ∈ edgeRefs, b ≠ main_v44 := by decide
theorem edges_not_written3 : ∀ b ∈ edgeRefs, b ∉ written3 := by decide
theorem edges_not_main_v58 : ∀ b ∈ edgeRefs, b ≠ main_v58 := by decide
theorem edges_not_main_v59 : ∀ b ∈ edgeRefs, b ≠ main_v59 := by decide
theorem edges_not_written5 : ∀ b ∈ edgeRefs, b ∉ written5 := by decide

variable (m : (ℓ : Loc nD τ sig) → Buf (Elt Ideal) ℓ) (ρ : Dev nD → PrngReg) (c : Dev nD)

/-! No segment writes an argument: its buffer holds the launch contents at every boundary. -/
theorem arg1 (b : Ref sig .tc) (hb : b ∈ argRefs) : W1 m ρ c (Proc.devRef .tc b) = m ((c : Thread nD τ).loc b) :=
  (kept1 m ρ c b (args_not_written0 b hb)).trans rfl
theorem arg2 (b : Ref sig .tc) (hb : b ∈ argRefs) : W2 m ρ c (Proc.devRef .tc b) = m ((c : Thread nD τ).loc b) :=
  (kept2 m ρ c b (args_not_main_v29 b hb)).trans (arg1 m ρ c b hb)
theorem arg3 (b : Ref sig .tc) (hb : b ∈ argRefs) : W3 m ρ c (Proc.devRef .tc b) = m ((c : Thread nD τ).loc b) :=
  (kept3 m ρ c b (args_not_written1 b hb)).trans (arg2 m ρ c b hb)
theorem arg4 (b : Ref sig .tc) (hb : b ∈ argRefs) : W4 m ρ c (Proc.devRef .tc b) = m ((c : Thread nD τ).loc b) :=
  (kept4 m ρ c b (args_not_main_v43 b hb)).trans (arg3 m ρ c b hb)
theorem arg5 (b : Ref sig .tc) (hb : b ∈ argRefs) : W5 m ρ c (Proc.devRef .tc b) = m ((c : Thread nD τ).loc b) :=
  (kept5 m ρ c b (args_not_main_v44 b hb)).trans (arg4 m ρ c b hb)
theorem arg6 (b : Ref sig .tc) (hb : b ∈ argRefs) : W6 m ρ c (Proc.devRef .tc b) = m ((c : Thread nD τ).loc b) :=
  (kept6 m ρ c b (args_not_written3 b hb)).trans (arg5 m ρ c b hb)
theorem arg7 (b : Ref sig .tc) (hb : b ∈ argRefs) : W7 m ρ c (Proc.devRef .tc b) = m ((c : Thread nD τ).loc b) :=
  (kept7 m ρ c b (args_not_main_v58 b hb)).trans (arg6 m ρ c b hb)
theorem arg8 (b : Ref sig .tc) (hb : b ∈ argRefs) : W8 m ρ c (Proc.devRef .tc b) = m ((c : Thread nD τ).loc b) :=
  (kept8 m ρ c b (args_not_main_v59 b hb)).trans (arg7 m ρ c b hb)
theorem arg9 (b : Ref sig .tc) (hb : b ∈ argRefs) : W9 m ρ c (Proc.devRef .tc b) = m ((c : Thread nD τ).loc b) :=
  (kept9 m ρ c b (args_not_written5 b hb)).trans (arg8 m ρ c b hb)
theorem arg10 (b : Ref sig .tc) (hb : b ∈ argRefs) : W10 m ρ c (Proc.devRef .tc b) = m ((c : Thread nD τ).loc b) :=
  (kept10 m ρ c b (args_not_main_v73 b hb)).trans (arg9 m ρ c b hb)
theorem arg11 (b : Ref sig .tc) (hb : b ∈ argRefs) : W11 m ρ c (Proc.devRef .tc b) = m ((c : Thread nD τ).loc b) :=
  (kept11 m ρ c b (args_not_written6 b hb)).trans (arg10 m ρ c b hb)

/-! The per-edge arrays are written once, by the first stretch, and kept by every later segment that still reads them. -/
theorem edge2 (b : Ref sig .tc) (hb : b ∈ edgeRefs) : W2 m ρ c (Proc.devRef .tc b) = W1 m ρ c (Proc.devRef .tc b) :=
  (kept2 m ρ c b (edges_not_main_v29 b hb)).trans (rfl)
theorem edge3 (b : Ref sig .tc) (hb : b ∈ edgeRefs) : W3 m ρ c (Proc.devRef .tc b) = W1 m ρ c (Proc.devRef .tc b) :=
  (kept3 m ρ c b (edges_not_written1 b hb)).trans (edge2 m ρ c b hb)
theorem edge4 (b : Ref sig .tc) (hb : b ∈ edgeRefs) : W4 m ρ c (Proc.devRef .tc b) = W1 m ρ c (Proc.devRef .tc b) :=
  (kept4 m ρ c b (edges_not_main_v43 b hb)).trans (edge3 m ρ c b hb)
theorem edge5 (b : Ref sig .tc) (hb : b ∈ edgeRefs) : W5 m ρ c (Proc.devRef .tc b) = W1 m ρ c (Proc.devRef .tc b) :=
  (kept5 m ρ c b (edges_not_main_v44 b hb)).trans (edge4 m ρ c b hb)
theorem edge6 (b : Ref sig .tc) (hb : b ∈ edgeRefs) : W6 m ρ c (Proc.devRef .tc b) = W1 m ρ c (Proc.devRef .tc b) :=
  (kept6 m ρ c b (edges_not_written3 b hb)).trans (edge5 m ρ c b hb)
theorem edge7 (b : Ref sig .tc) (hb : b ∈ edgeRefs) : W7 m ρ c (Proc.devRef .tc b) = W1 m ρ c (Proc.devRef .tc b) :=
  (kept7 m ρ c b (edges_not_main_v58 b hb)).trans (edge6 m ρ c b hb)
theorem edge8 (b : Ref sig .tc) (hb : b ∈ edgeRefs) : W8 m ρ c (Proc.devRef .tc b) = W1 m ρ c (Proc.devRef .tc b) :=
  (kept8 m ρ c b (edges_not_main_v59 b hb)).trans (edge7 m ρ c b hb)
theorem edge9 (b : Ref sig .tc) (hb : b ∈ edgeRefs) : W9 m ρ c (Proc.devRef .tc b) = W1 m ρ c (Proc.devRef .tc b) :=
  (kept9 m ρ c b (edges_not_written5 b hb)).trans (edge8 m ρ c b hb)

/-- After the first stretch the per-edge arrays are the reference's stages of the edge list. -/
theorem sources1 : W1 m ρ c (Proc.devRef .tc main_v1) = Cert.ReferenceIdeal.Read.val_main_v1 (F := Ideal) (m ((c : Thread nD τ).loc main_arg1)) := sources (W0 m ρ c)
theorem destinations1 : W1 m ρ c (Proc.devRef .tc main_v3) = Cert.ReferenceIdeal.Read.val_main_v3 (F := Ideal) (m ((c : Thread nD τ).loc main_arg1)) := destinations (W0 m ρ c)
theorem edgeWeights1 : W1 m ρ c (Proc.devRef .tc main_v26) = Cert.ReferenceIdeal.Read.val_main_v26 (F := Ideal) (m ((c : Thread nD τ).loc main_arg1)) := edgeWeights (W0 m ρ c)
theorem selfWeights1 : W1 m ρ c (Proc.devRef .tc main_v28) = Cert.ReferenceIdeal.Read.val_main_v28 (F := Ideal) (m ((c : Thread nD τ).loc main_arg1)) := selfWeights (W0 m ρ c)

/-- A bias laid out as one row, read back along that row, is the bias. -/
theorem bias_row (b : (⟨1, ![128]⟩ : Shape).Idx → EReal) (h : (⟨1, ![128]⟩ : Shape).ShapeCasts ⟨2, ![1, 128]⟩) :
    (fun j : (⟨1, ![128]⟩ : Shape).Idx => shapeCast ⟨2, ![1, 128]⟩ b h (ix2 0 (j 0))) = b :=
  funext fun j => (shapeCast_a_1a_apply b h 0 (j 0)).trans (congrArg b (eq_ix1 j).symm)
theorem bias_row64 (b : (⟨1, ![64]⟩ : Shape).Idx → EReal) (h : (⟨1, ![64]⟩ : Shape).ShapeCasts ⟨2, ![1, 64]⟩) :
    (fun j : (⟨1, ![64]⟩ : Shape).Idx => shapeCast ⟨2, ![1, 64]⟩ b h (ix2 0 (j 0))) = b :=
  funext fun j => (shapeCast_a_1a_apply b h 0 (j 0)).trans (congrArg b (eq_ix1 j).symm)

/-! ## The first layer -/

/-- Region 0 leaves the first projection. -/
theorem projected1 : W2 m ρ c (Proc.devRef .tc main_v29) = Cert.ReferenceIdeal.Read.val_main_v29 (F := Ideal) (m ((c : Thread nD τ).loc main_arg0)) (m ((c : Thread nD τ).loc main_arg2)) := by
  refine (W2_arr m ρ c 2).trans ((Project0.final (V1 m ρ) c).trans ?_)
  have h0 : V1 m ρ c main_arg0 = (m ((c : Thread nD τ).loc main_arg0)) := arg1 m ρ c main_arg0 (by decide)
  have h2 : V1 m ρ c main_arg2 = (m ((c : Thread nD τ).loc main_arg2)) := arg1 m ρ c main_arg2 (by decide)
  rw [h0, h2]
  exact (Cert.ReferenceIdeal.Stages.v29 (m ((c : Thread nD τ).loc main_arg0)) (m ((c : Thread nD τ).loc main_arg2))).symm

/-- The stretch after it leaves the first aggregate. -/
theorem aggregated1 : W3 m ρ c (Proc.devRef .tc main_v41) = Cert.ReferenceIdeal.Read.val_main_v41 (F := Ideal) (m ((c : Thread nD τ).loc main_arg0)) (m ((c : Thread nD τ).loc main_arg1)) (m ((c : Thread nD τ).loc main_arg2)) := by
  refine (aggregate1 (W2 m ρ c)).trans ?_
  rw [projected1 m ρ c, (edge2 m ρ c main_v1 (by decide)).trans (sources1 m ρ c), (edge2 m ρ c main_v3 (by decide)).trans (destinations1 m ρ c),
    (edge2 m ρ c main_v26 (by decide)).trans (edgeWeights1 m ρ c)]
  exact (Cert.ReferenceIdeal.Aggregate.first (m ((c : Thread nD τ).loc main_arg0)) (m ((c : Thread nD τ).loc main_arg1)) (m ((c : Thread nD τ).loc main_arg2))).symm

/-- Region 1 leaves the first layer's output. -/
theorem layer1 : W4 m ρ c (Proc.devRef .tc main_v43) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) := by
  refine (W4_arr m ρ c 5).trans ((Combine1.final (V3 m ρ) c).trans ?_)
  have ha : V3 m ρ c main_v41 = Cert.ReferenceIdeal.Read.val_main_v41 (F := Ideal) (m ((c : Thread nD τ).loc main_arg0)) (m ((c : Thread nD τ).loc main_arg1)) (m ((c : Thread nD τ).loc main_arg2)) := aggregated1 m ρ c
  have hp : V3 m ρ c main_v29 = Cert.ReferenceIdeal.Read.val_main_v29 (F := Ideal) (m ((c : Thread nD τ).loc main_arg0)) (m ((c : Thread nD τ).loc main_arg2)) := (kept3 m ρ c main_v29 (by decide)).trans (projected1 m ρ c)
  have hs : V3 m ρ c main_v28 = Cert.ReferenceIdeal.Read.val_main_v28 (F := Ideal) (m ((c : Thread nD τ).loc main_arg1)) := (edge3 m ρ c main_v28 (by decide)).trans (selfWeights1 m ρ c)
  have hb : V3 m ρ c main_v42 = shapeCast S1x128 (m ((c : Thread nD τ).loc main_arg3)) shapeCasts_S128_S1x128 :=
    (bias1 (W2 m ρ c)).trans (congrArg (fun z => shapeCast S1x128 z shapeCasts_S128_S1x128) (arg2 m ρ c main_arg3 (by decide)))
  have hh : V3 m ρ c main_arg0 = (m ((c : Thread nD τ).loc main_arg0)) := arg3 m ρ c main_arg0 (by decide)
  rw [ha, hp, hs, hb, hh, bias_row]
  exact (Cert.ReferenceIdeal.Stages.v49 (m ((c : Thread nD τ).loc main_arg0)) (m ((c : Thread nD τ).loc main_arg1)) (m ((c : Thread nD τ).loc main_arg2)) (m ((c : Thread nD τ).loc main_arg3))).symm

/-! ## The second layer -/

theorem projected2 : W5 m ρ c (Proc.devRef .tc main_v44) = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Project2.final (V4 m ρ) c).trans ?_)
  have h0 : V4 m ρ c main_v43 = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) := layer1 m ρ c
  have h2 : V4 m ρ c main_arg4 = (m ((c : Thread nD τ).loc main_arg4)) := arg4 m ρ c main_arg4 (by decide)
  rw [h0, h2]
  exact (Cert.ReferenceIdeal.Stages.v50 (m ((c : Thread nD τ).loc main_arg0)) (m ((c : Thread nD τ).loc main_arg1)) (m ((c : Thread nD τ).loc main_arg2)) (m ((c : Thread nD τ).loc main_arg3)) (m ((c : Thread nD τ).loc main_arg4))).symm

theorem aggregated2 : W6 m ρ c (Proc.devRef .tc main_v56) = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (aggregate3 (W5 m ρ c)).trans ?_
  rw [projected2 m ρ c, (edge5 m ρ c main_v1 (by decide)).trans (sources1 m ρ c), (edge5 m ρ c main_v3 (by decide)).trans (destinations1 m ρ c),
    (edge5 m ρ c main_v26 (by decide)).trans (edgeWeights1 m ρ c)]
  exact (Cert.ReferenceIdeal.Aggregate.second (m ((c : Thread nD τ).loc main_arg0)) (m ((c : Thread nD τ).loc main_arg1)) (m ((c : Thread nD τ).loc main_arg2)) (m ((c : Thread nD τ).loc main_arg3)) (m ((c : Thread nD τ).loc main_arg4))).symm

theorem layer2 : W7 m ρ c (Proc.devRef .tc main_v58) = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 5).trans ((Combine3.final (V6 m ρ) c).trans ?_)
  have ha : V6 m ρ c main_v56 = Cert.ReferenceIdeal.Read.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := aggregated2 m ρ c
  have hp : V6 m ρ c main_v44 = Cert.ReferenceIdeal.Read.val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (kept6 m ρ c main_v44 (by decide)).trans (projected2 m ρ c)
  have hs : V6 m ρ c main_v28 = Cert.ReferenceIdeal.Read.val_main_v28 (F := Ideal) (m ((c : Thread nD τ).loc main_arg1)) := (edge6 m ρ c main_v28 (by decide)).trans (selfWeights1 m ρ c)
  have hb : V6 m ρ c main_v57 = shapeCast S1x128 (m ((c : Thread nD τ).loc main_arg5)) shapeCasts_S128_S1x128 :=
    (bias3 (W5 m ρ c)).trans (congrArg (fun z => shapeCast S1x128 z shapeCasts_S128_S1x128) (arg5 m ρ c main_arg5 (by decide)))
  have hh : V6 m ρ c main_v43 = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) :=
    (kept6 m ρ c main_v43 (by decide)).trans ((kept5 m ρ c main_v43 (by decide)).trans (layer1 m ρ c))
  rw [ha, hp, hs, hb, hh, bias_row]
  exact (Cert.ReferenceIdeal.Stages.v70 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

/-! ## The third layer -/

theorem projected3 : W8 m ρ c (Proc.devRef .tc main_v59) = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((Project4.final (V7 m ρ) c).trans ?_)
  have h0 : V7 m ρ c main_v58 = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := layer2 m ρ c
  have h2 : V7 m ρ c main_arg6 = (m ((c : Thread nD τ).loc main_arg6)) := arg7 m ρ c main_arg6 (by decide)
  rw [h0, h2]
  exact (Cert.ReferenceIdeal.Stages.v71 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

theorem aggregated3 : W9 m ρ c (Proc.devRef .tc main_v71) = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (aggregate5 (W8 m ρ c)).trans ?_
  rw [projected3 m ρ c, (edge8 m ρ c main_v1 (by decide)).trans (sources1 m ρ c), (edge8 m ρ c main_v3 (by decide)).trans (destinations1 m ρ c),
    (edge8 m ρ c main_v26 (by decide)).trans (edgeWeights1 m ρ c)]
  exact (Cert.ReferenceIdeal.Aggregate.third (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm

theorem layer3 : W10 m ρ c (Proc.devRef .tc main_v73) = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 5).trans ((Combine5.final (V9 m ρ) c).trans ?_)
  have ha : V9 m ρ c main_v71 = Cert.ReferenceIdeal.Read.val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := aggregated3 m ρ c
  have hp : V9 m ρ c main_v59 = Cert.ReferenceIdeal.Read.val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := (kept9 m ρ c main_v59 (by decide)).trans (projected3 m ρ c)
  have hs : V9 m ρ c main_v28 = Cert.ReferenceIdeal.Read.val_main_v28 (F := Ideal) (m ((c : Thread nD τ).loc main_arg1)) := (edge9 m ρ c main_v28 (by decide)).trans (selfWeights1 m ρ c)
  have hb : V9 m ρ c main_v72 = shapeCast S1x128 (m ((c : Thread nD τ).loc main_arg7)) shapeCasts_S128_S1x128 :=
    (bias5 (W8 m ρ c)).trans (congrArg (fun z => shapeCast S1x128 z shapeCasts_S128_S1x128) (arg8 m ρ c main_arg7 (by decide)))
  have hh : V9 m ρ c main_v58 = Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
    (kept9 m ρ c main_v58 (by decide)).trans ((kept8 m ρ c main_v58 (by decide)).trans (layer2 m ρ c))
  rw [ha, hp, hs, hb, hh, bias_row]
  exact (Cert.ReferenceIdeal.Stages.v91 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))).symm

/-! ## The readout -/

/-- At the end of @main the result array is the reference's last stage of the ten arguments. -/
theorem result : W12 m ρ c (Proc.devRef .tc main_v75) = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((Readout6.final (V11 m ρ) c).trans ?_)
  have h0 : V11 m ρ c main_v73 = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (kept11 m ρ c main_v73 (by decide)).trans (layer3 m ρ c)
  have hw : V11 m ρ c main_arg8 = (m ((c : Thread nD τ).loc main_arg8)) := arg11 m ρ c main_arg8 (by decide)
  have hb : V11 m ρ c main_v74 = shapeCast S1x64 (m ((c : Thread nD τ).loc main_arg9)) shapeCasts_S64_S1x64 :=
    (bias6 (W10 m ρ c)).trans (congrArg (fun z => shapeCast S1x64 z shapeCasts_S64_S1x64) (arg10 m ρ c main_arg9 (by decide)))
  rw [h0, hw, hb, bias_row64]
  exact (Cert.ReferenceIdeal.Stages.v95 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))).symm

end Cert.KernelIdeal.Result

end
-- ==== Proof.lean ====
/-
  The certificate of a three-layer graph convolution: a kernel program of seven TensorCore regions among host operations,
  against a plain host reference, over the extended reals.

  WHAT IS CLAIMED. Both programs take node features x (50000 × 128), an edge list (2 × 800000 integers), three weight
  matrices with their biases and a last 128 × 64 matrix with its bias. With d the inverse square root of (in-degree + 1),
  a layer maps h to  max ((A(h·W) + (h·W) ∘ d² ) + b, 0) + h,  where A gathers the rows of h·W at the edges' sources, scales
  them by d[src]·d[dst] and sums them into the edges' destinations; the result is the third layer's output times the last
  matrix, plus its bias. The three frames say each program runs to the end without a fault and leaves its arguments alone;
  the value claim says the idealized kernel and the idealized reference end with the same result array, entry by entry.

  WHY IT HOLDS. The edge arithmetic and the aggregation A are the same host operations in both programs, so they are carried
  as named functions and never opened. The kernel program differs only in computing h·W, the entrywise step and the last
  projection inside regions, block by block over 25 row blocks of 2000 rows. Per region, the output array after the region
  is the whole-array function of `Layer.lean` (project / combine / readout) of the arrays the region found: a block's entry
  depends only on the same row of the row-blocked inputs, and the blocks tile the rows. On the reference side the same three
  functions are the corresponding stages. Walking the kernel program's segment boundaries (`Result.lean`) identifies each
  buffer with a reference stage of the ten arguments, and the last one is the result. No algebraic law is needed — both
  programs add and multiply in the same grouping — so finiteness of the inputs is never used.

  The kernel's ideal pass rewrote nothing, so `preserves` is `True`.
-/
import proofs.«116004_j4913442587254_1_alg».proof.Defs
import proofs.«116004_j4913442587254_1_alg».proof.Proof.Gen.Kernel
import proofs.«116004_j4913442587254_1_alg».proof.Proof.Gen.Kernel.Frame
import proofs.«116004_j4913442587254_1_alg».proof.Proof.Gen.KernelIdeal
import proofs.«116004_j4913442587254_1_alg».proof.Proof.Gen.KernelIdeal.Frame
import proofs.«116004_j4913442587254_1_alg».proof.Proof.Gen.ReferenceIdeal
import proofs.«116004_j4913442587254_1_alg».proof.Proof.Gen.ReferenceIdeal.Run
import proofs.«116004_j4913442587254_1_alg».proof.Proof.Gen.ReferenceIdeal.Read
import proofs.«116004_j4913442587254_1_alg».proof.Proof.Gen.Pre_finite_inputs
import proofs.«116004_j4913442587254_1_alg».proof.Proof.KRun
import proofs.«116004_j4913442587254_1_alg».proof.Proof.Result
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the same result array: the reference's last
    stage of the kernel program's ten argument arrays. The kernel's run ends with its result buffer at the last boundary's
    contents, which is that stage (`Result.result`); the reference's run ends with its own composed term, which is that stage of
    ITS arguments, and those are the kernel's by hypothesis. -/
theorem algebraic : Cert.algebraic_KernelIdeal_ReferenceIdeal := by
  intro m ρ m' ρ' _ hagree
  refine ⟨fun c => Cert.ReferenceIdeal.Read.val_main_v95 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Result.result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v95_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
